-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S100000x128 : Shape := ⟨2, ![100000, 128]⟩
abbrev S400000 : Shape := ⟨1, ![400000]⟩
abbrev S128x256 : Shape := ⟨2, ![128, 256]⟩
abbrev S3x256x256 : Shape := ⟨3, ![3, 256, 256]⟩
abbrev S3x256 : Shape := ⟨2, ![3, 256]⟩
abbrev S512x256 : Shape := ⟨2, ![512, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S400000 : S_.BroadcastsInDim S400000 (![] : Fin 0 → Fin S400000.rank)
  reducesTo_S400000_S_d0 : S400000.ReducesTo [0] S_
  bcast_S_S128x256 : S_.BroadcastsInDim S128x256 (![] : Fin 0 → Fin S128x256.rank)
  reducesTo_S128x256_S_d0_1 : S128x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg15 : FVec F S512x256 .f32) (main_arg16 : FVec F S256 .f32) (main_v48 : IVec S_ 1) (main_v49 : FVec F S3x256 .f32) (main_v50 : FVec F S3x256 .f32) : IVec S_ 1 :=
  let main_v51 : IVec S3x256 1 := cmpf .olt main_v49 main_v50
  let main_c_19 : IVec S_ 1 := constantI S_ 1 1#1
  let main_v52 : IVec S_ 1 := (fun x v => Host.reduce IntOp.andi x v reducesTo_S3x256_S_d0_1 h_S_) main_v51 main_c_19
  let main_v53 : IVec S_ 1 := andi main_v48 main_v52
  let main_v54 : FVec F S512x256 .f32 := Host.absf main_arg15
  let main_cst_20 : FVec F S_ .f32 := constant S_ .f32 0x7F800000#32
  let main_v55 : FVec F S512x256 .f32 := broadcastInDim S512x256 ![] bcast_S_S512x256 main_cst_20
  let main_v56 : IVec S512x256 1 := cmpf .olt main_v54 main_v55
  let main_c_21 : IVec S_ 1 := constantI S_ 1 1#1
  let main_v57 : IVec S_ 1 := (fun x v => Host.reduce IntOp.andi x v reducesTo_S512x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg11 : FVec F S3x256x256 .f32) (main_arg12 : FVec F S3x256 .f32) (main_arg13 : FVec F S3x256x256 .f32) (main_arg14 : FVec F S3x256 .f32) (main_arg15 : FVec F S512x256 .f32) (main_arg16 : FVec F S256 .f32) (main_v33 : IVec S_ 1) : IVec S_ 1 :=
  let main_v34 : FVec F S3x256x256 .f32 := Host.absf main_arg11
  let main_cst_12 : FVec F S_ .f32 := constant S_ .f32 0x7F800000#32
  let main_v35 : FVec F S3x256x256 .f32 := broadcastInDim S3x256x256 ![] bcast_S_S3x256x256 main_cst_12
  let main_v36 : IVec S3x256x256 1 := cmpf .olt main_v34 main_v35
  let main_c_13 : IVec S_ 1 := constantI S_ 1 1#1
  let main_v37 : IVec S_ 1 := (fun x v => Host.reduce IntOp.andi x v reducesTo_S3x256x256_S_d0_1_2 h_S_) main_v36 main_c_13
  let main_v38 : IVec S_ 1 := andi main_v33 main_v37
  let main_v39 : FVec F S3x256 .f32 := Host.absf main_arg12
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256x256 .f32 := Host.absf main_arg13
  let main_cst_16 : FVec F S_ .f32 := constant S_ .f32 0x7F800000#32
  let main_v45 : FVec F S3x256x256 .f32 := broadcastInDim S3x256x256 ![] bcast_S_S3x256x256 main_cst_16
  let main_v46 : IVec S3x256x256 1 := cmpf .olt main_v44 main_v45
  let main_c_17 : IVec S_ 1 := constantI S_ 1 1#1
  let main_v47 : IVec S_ 1 := (fun x v => Host.reduce IntOp.andi x v reducesTo_S3x256x256_S_d0_1_2 h_S_) main_v46 main_c_17
  let main_v48 : IVec S_ 1 := andi main_v43 main_v47
  let main_v49 : FVec F S3x256 .f32 := Host.absf main_arg14
  let main_cst_18 : FVec F S_ .f32 := constant S_ .f32 0x7F800000#32
  let main_v50 : FVec F S3x256 .f32 := broadcastInDim S3x256 ![] bcast_S_S3x256 main_cst_18
  fn_part3 (F := F) main_arg15 main_arg16 main_v48 main_v49 main_v50

def fn_part1 {F : FTy → Type} [FloatOps F] (main_arg4 : FVec F S400000 .f32) (main_arg9 : FVec F S128x256 .f32) (main_arg10 : FVec F S128x256 .f32) (main_arg11 : FVec F S3x256x256 .f32) (main_arg12 : FVec F S3x256 .f32) (main_arg13 : FVec F S3x256x256 .f32) (main_arg14 : FVec F S3x256 .f32) (main_arg15 : FVec F S512x256 .f32) (main_arg16 : FVec F S256 .f32) (main_v13 : IVec S_ 1) (main_v16 : IVec S400000 1) : IVec S_ 1 :=
  let main_c_5 : IVec S_ 1 := constantI S_ 1 1#1
  let main_v17 : IVec S_ 1 := (fun x v => Host.reduce IntOp.andi x v reducesTo_S400000_S_d0 h_S_) main_v16 main_c_5
  let main_v18 : IVec S_ 1 := andi main_v13 main_v17
  let main_v19 : FVec F S400000 .f32 := Host.absf main_arg4
  let main_cst_6 : FVec F S_ .f32 := constant S_ .f32 0x7F800000#32
  let main_v20 : FVec F S400000 .f32 := broadcastInDim S400000 ![] bcast_S_S400000 main_cst_6
  let main_v21 : IVec S400000 1 := cmpf .olt main_v19 main_v20
  let main_c_7 : IVec S_ 1 := constantI S_ 1 1#1
  let main_v22 : IVec S_ 1 := (fun x v => Host.reduce IntOp.andi x v reducesTo_S400000_S_d0 h_S_) main_v21 main_c_7
  let main_v23 : IVec S_ 1 := andi main_v18 main_v22
  let main_v24 : FVec F S128x256 .f32 := Host.absf main_arg9
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128x256 .f32 := Host.absf main_arg10
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg11 main_arg12 main_arg13 main_arg14 main_arg15 main_arg16 main_v33

def fn {F : FTy → Type} [FloatOps F] (main_arg0 : FVec F S50000x256 .f32) (main_arg1 : FVec F S100000x128 .f32) (main_arg2 : FVec F S100000x128 .f32) (main_arg3 : FVec F S400000 .f32) (main_arg4 : FVec F S400000 .f32) (main_arg5 : IVec S400000 32) (main_arg6 : IVec S400000 32) (main_arg7 : IVec S400000 32) (main_arg8 : IVec S400000 32) (main_arg9 : FVec F S128x256 .f32) (main_arg10 : FVec F S128x256 .f32) (main_arg11 : FVec F S3x256x256 .f32) (main_arg12 : FVec F S3x256 .f32) (main_arg13 : FVec F S3x256x256 .f32) (main_arg14 : FVec F S3x256 .f32) (main_arg15 : FVec F S512x256 .f32) (main_arg16 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S400000 .f32 := Host.absf main_arg3
  let main_cst_4 : FVec F S_ .f32 := constant S_ .f32 0x7F800000#32
  let main_v15 : FVec F S400000 .f32 := broadcastInDim S400000 ![] bcast_S_S400000 main_cst_4
  let main_v16 : IVec S400000 1 := cmpf .olt main_v14 main_v15
  fn_part1 (F := F) main_arg4 main_arg9 main_arg10 main_arg11 main_arg12 main_arg13 main_arg14 main_arg15 main_arg16 main_v13 main_v16
-- ==== Kernel.lean ====
abbrev S50000x256 : Shape := ⟨2, ![50000, 256]⟩
abbrev S100000x128 : Shape := ⟨2, ![100000, 128]⟩
abbrev S400000 : Shape := ⟨1, ![400000]⟩
abbrev S128x256 : Shape := ⟨2, ![128, 256]⟩
abbrev S3x256x256 : Shape := ⟨3, ![3, 256, 256]⟩
abbrev S3x256 : Shape := ⟨2, ![3, 256]⟩
abbrev S512x256 : Shape := ⟨2, ![512, 256]⟩
abbrev S256 : Shape := ⟨1, ![256]⟩
abbrev S100000x256 : Shape := ⟨2, ![100000, 256]⟩
abbrev S2000x128 : Shape := ⟨2, ![2000, 128]⟩
abbrev S2000x256 : Shape := ⟨2, ![2000, 256]⟩
abbrev S400000x1 : Shape := ⟨2, ![400000, 1]⟩
abbrev S_ : Shape := ⟨0, ![]⟩
abbrev S400000x256 : Shape := ⟨2, ![400000, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 57
  | .vmem => 35
  | .smem => 0
  | _ => 0

abbrev bufTy : (tb : Table) → Fin (tcTables nBuf tb) → BufTy
  | .hbm, ⟨0, _⟩ => ⟨S50000x256, .f32⟩
  | .hbm, ⟨1, _⟩ => ⟨S100000x128, .f32⟩
  | .hbm, ⟨2, _⟩ => ⟨S100000x128, .f32⟩
  | .hbm, ⟨3, _⟩ => ⟨S400000, .f32⟩
  | .hbm, ⟨4, _⟩ => ⟨S400000, .f32⟩
  | .hbm, ⟨5, _⟩ => ⟨S400000, .i32⟩
  | .hbm, ⟨6, _⟩ => ⟨S400000, .i32⟩
  | .hbm, ⟨7, _⟩ => ⟨S400000, .i32⟩
  | .hbm, ⟨8, _⟩ => ⟨S400000, .i32⟩
  | .hbm, ⟨9, _⟩ => ⟨S128x256, .f32⟩
  | .hbm, ⟨10, _⟩ => ⟨S128x256, .f32⟩
  | .hbm, ⟨11, _⟩ => ⟨S3x256x256, .f32⟩
  | .hbm, ⟨12, _⟩ => ⟨S3x256, .f32⟩
  | .hbm, ⟨13, _⟩ => ⟨S3x256x256, .f32⟩
  | .hbm, ⟨14, _⟩ => ⟨S3x256, .f32⟩
  | .hbm, ⟨15, _⟩ => ⟨S512x256, .f32⟩
  | .hbm, ⟨16, _⟩ => ⟨S256, .f32⟩
  | .hbm, ⟨17, _⟩ => ⟨S100000x256, .f32⟩
  | .hbm, ⟨18, _⟩ => ⟨S100000x256, .f32⟩
  | .hbm, ⟨19, _⟩ => ⟨S400000x1, .f32⟩
  | .hbm, ⟨20, _⟩ => ⟨S_, .i32⟩
  | .hbm, ⟨21, _⟩ => ⟨S400000, .i32⟩
  | .hbm, ⟨22, _⟩ => ⟨S400000, .i1⟩
  | .hbm, ⟨23, _⟩ => ⟨S_, .i32⟩
  | .hbm, ⟨24, _⟩ => ⟨S400000, .i32⟩
  | .hbm, ⟨25, _⟩ => ⟨S400000, .i32⟩
  | .hbm, ⟨26, _⟩ => ⟨S400000, .i32⟩
  | .hbm, ⟨27, _⟩ => ⟨S400000x1, .i32⟩
  | .hbm, ⟨28, _⟩ => ⟨S400000x256, .f32⟩
  | .hbm, ⟨29, _⟩ => ⟨S400000x256, .f32⟩
  | .hbm, ⟨30, _⟩ => ⟨S400000x256, .f32⟩
  | .hbm, ⟨31, _⟩ => ⟨S400000x1, .f32⟩
  | .hbm, ⟨32, _⟩ => ⟨S_, .i32⟩
  | .hbm, ⟨33, _⟩ => ⟨S400000, .i32⟩
  | .hbm, ⟨34, _⟩ => ⟨S400000, .i1⟩
  | .hbm, ⟨35, _⟩ => ⟨S_, .i32⟩
  | .hbm, ⟨36, _⟩ => ⟨S400000, .i32⟩
  | .hbm, ⟨37, _⟩ => ⟨S400000, .i32⟩
  | .hbm, ⟨38, _⟩ => ⟨S400000, .i32⟩
  | .hbm, ⟨39, _⟩ => ⟨S400000x1, .i32⟩
  | .hbm, ⟨40, _⟩ => ⟨S400000x256, .f32⟩
  | .hbm, ⟨41, _⟩ => ⟨S400000x256, .f32⟩
  | .hbm, ⟨42, _⟩ => ⟨S400000x256, .f32⟩
  | .hbm, ⟨43, _⟩ => ⟨S_, .f32⟩
  | .hbm, ⟨44, _⟩ => ⟨S50000x256, .f32⟩
  | .hbm, ⟨45, _⟩ => ⟨S400000x1, .i32⟩
  | .hbm, ⟨46, _⟩ => ⟨S50000x256, .f32⟩
  | .hbm, ⟨47, _⟩ => ⟨S_, .f32⟩
  | .hbm, ⟨48, _⟩ => ⟨S50000x256, .f32⟩
  | .hbm, ⟨49, _⟩ => ⟨S400000x1, .i32⟩
  | .hbm, ⟨50, _⟩ => ⟨S50000x256, .f32⟩
  | .hbm, ⟨51, _⟩ => ⟨S50000x256, .f32⟩
  | .hbm, ⟨52, _⟩ => ⟨S50000x256, .f32⟩
  | .hbm, ⟨53, _⟩ => ⟨S256x256, .f32⟩
  | .hbm, ⟨54, _⟩ => ⟨S256x256, .f32⟩
  | .hbm, ⟨55, _⟩ => ⟨S1x256, .f32⟩
  | .hbm, ⟨56, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x128, .f32⟩
  | .local _ .vmem, ⟨6, _⟩ => ⟨S2000x128, .f32⟩
  | .local _ .vmem, ⟨7, _⟩ => ⟨S128x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S3x256x256, .f32⟩
  | .local _ .vmem, ⟨15, _⟩ => ⟨S3x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S3x256x256, .f32⟩
  | .local _ .vmem, ⟨23, _⟩ => ⟨S3x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x256, .f32⟩
  | .local _ .vmem, ⟨31, _⟩ => ⟨S256x256, .f32⟩
  | .local _ .vmem, ⟨32, _⟩ => ⟨S1x256, .f32⟩
  | .local _ .vmem, ⟨33, _⟩ => ⟨S2000x256, .f32⟩
  | .local _ .vmem, ⟨34, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg5_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem5_1 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S3x256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S3x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  shapeCasts_S2000x256_S2000x256 : S2000x256.ShapeCasts S2000x256
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256_S1x256_0_0 : ∀ a, (![0, 0] : Fin 2 → Nat) a + S1x256.size a ≤ S3x256.size a
  h_S1x256 : 0 < S1x256.numel
  shapeCasts_S1x256_S256 : S1x256.ShapeCasts S256
  shapeCasts_S256_S1x256 : S256.ShapeCasts S1x256
  broadcasts_S1x256_S2000x256 : S1x256.Broadcasts S2000x256
  inb_S3x256x256_S1x256x256_1_0_0 : ∀ a, (![1, 0, 0] : Fin 3 → Nat) a + S1x256x256.size a ≤ S3x256x256.size a
  inb_S3x256_S1x256_1_0 : ∀ a, (![1, 0] : Fin 2 → Nat) a + S1x256.size a ≤ S3x256.size a
  inb_S3x256x256_S1x256x256_2_0_0 : ∀ a, (![2, 0, 0] : Fin 3 → Nat) a + S1x256x256.size a ≤ S3x256x256.size a
  inb_S3x256_S1x256_2_0 : ∀ a, (![2, 0] : Fin 2 → Nat) a + S1x256.size a ≤ S3x256.size a
  slices_S512x256_S256x256_0_0 : S512x256.Slices ![0, 0] S256x256
  slices_S512x256_S256x256_256_0 : S512x256.Slices ![256, 0] S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  shapeCasts_S1x256_S1x256 : S1x256.ShapeCasts S1x256
  dot_S2000x128_S128x256_S2000x256_1_0_0_1_n_n_wf : DotDims.WF S2000x128 S128x256 S2000x256 [1] [0] [0] [1] [] []
  gather_S100000x256_S400000x1_S400000x256_1_0_n_n_0_1_1256_wf : GatherDims.WF S100000x256 S400000x1 S400000x256 [1] [0] [] [0] [] 1 ![1, 256]
  scatter_S50000x256_S400000x1_S400000x256_1_0_0_1_wf : ScatterDims.WF S50000x256 S400000x1 S400000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S100000x256.size a
  hwx1_2 : ∀ i : grid1.Coords, EltTy.bits .f32 = 32 ∨ (Rect.block (s := S100000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x256x256.size a ≤ S3x256x256.size a
  hwx2_2 : ∀ i : grid2.Coords, EltTy.bits .f32 = 32 ∨ (Rect.block (s := S3x256x256) S3x256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x256.size a ≤ S3x256.size a
  hwx2_3 : ∀ i : grid2.Coords, EltTy.bits .f32 = 32 ∨ (Rect.block (s := S3x256) S3x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S3x256x256.size a ≤ S3x256x256.size a
  hwx3_2 : ∀ i : grid3.Coords, EltTy.bits .f32 = 32 ∨ (Rect.block (s := S3x256x256) S3x256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x256.size a ≤ S3x256.size a
  hwx3_3 : ∀ i : grid3.Coords, EltTy.bits .f32 = 32 ∨ (Rect.block (s := S3x256) S3x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg1) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v24) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S3x256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S3x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v27) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S3x256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S3x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v29) S2000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v28) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v30) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v31) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v32) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v33) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x256 : Shape := ⟨2, ![50000, 256]⟩
abbrev S100000x128 : Shape := ⟨2, ![100000, 128]⟩
abbrev S400000 : Shape := ⟨1, ![400000]⟩
abbrev S128x256 : Shape := ⟨2, ![128, 256]⟩
abbrev S3x256x256 : Shape := ⟨3, ![3, 256, 256]⟩
abbrev S3x256 : Shape := ⟨2, ![3, 256]⟩
abbrev S512x256 : Shape := ⟨2, ![512, 256]⟩
abbrev S256 : Shape := ⟨1, ![256]⟩
abbrev S100000x256 : Shape := ⟨2, ![100000, 256]⟩
abbrev S400000x1 : Shape := ⟨2, ![400000, 1]⟩
abbrev S_ : Shape := ⟨0, ![]⟩
abbrev S400000x256 : Shape := ⟨2, ![400000, 256]⟩
abbrev S1x256x256 : Shape := ⟨3, ![1, 256, 256]⟩
abbrev S256x256 : Shape := ⟨2, ![256, 256]⟩
abbrev S1x256 : Shape := ⟨2, ![1, 256]⟩
abbrev S50000x512 : Shape := ⟨2, ![50000, 512]⟩

abbrev nBuf : Space → Nat
  | .hbm => 130
  | .vmem => 0
  | .smem => 0
  | _ => 0

abbrev hbmTy0_0 (i : Nat) : BufTy := match i % 128 with
  | 0 => ⟨S50000x256, .f32⟩
  | 1 => ⟨S100000x128, .f32⟩
  | 2 => ⟨S100000x128, .f32⟩
  | 3 => ⟨S400000, .f32⟩
  | 4 => ⟨S400000, .f32⟩
  | 5 => ⟨S400000, .i32⟩
  | 6 => ⟨S400000, .i32⟩
  | 7 => ⟨S400000, .i32⟩
  | 8 => ⟨S400000, .i32⟩
  | 9 => ⟨S128x256, .f32⟩
  | 10 => ⟨S128x256, .f32⟩
  | 11 => ⟨S3x256x256, .f32⟩
  | 12 => ⟨S3x256, .f32⟩
  | 13 => ⟨S3x256x256, .f32⟩
  | 14 => ⟨S3x256, .f32⟩
  | 15 => ⟨S512x256, .f32⟩
  | 16 => ⟨S256, .f32⟩
  | 17 => ⟨S100000x256, .f32⟩
  | 18 => ⟨S400000x1, .f32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x256, .f32⟩
  | 28 => ⟨S400000x256, .f32⟩
  | 29 => ⟨S400000x256, .f32⟩
  | 30 => ⟨S_, .f32⟩
  | 31 => ⟨S50000x256, .f32⟩
  | 32 => ⟨S400000x1, .i32⟩
  | 33 => ⟨S50000x256, .f32⟩
  | 34 => ⟨S_, .f32⟩
  | 35 => ⟨S50000x256, .f32⟩
  | 36 => ⟨S50000x256, .f32⟩
  | 37 => ⟨S50000x256, .f32⟩
  | 38 => ⟨S1x256x256, .f32⟩
  | 39 => ⟨S256x256, .f32⟩
  | 40 => ⟨S50000x256, .f32⟩
  | 41 => ⟨S1x256, .f32⟩
  | 42 => ⟨S256, .f32⟩
  | 43 => ⟨S1x256, .f32⟩
  | 44 => ⟨S50000x256, .f32⟩
  | 45 => ⟨S50000x256, .f32⟩
  | 46 => ⟨S_, .f32⟩
  | 47 => ⟨S50000x256, .f32⟩
  | 48 => ⟨S50000x256, .f32⟩
  | 49 => ⟨S1x256x256, .f32⟩
  | 50 => ⟨S256x256, .f32⟩
  | 51 => ⟨S50000x256, .f32⟩
  | 52 => ⟨S1x256, .f32⟩
  | 53 => ⟨S256, .f32⟩
  | 54 => ⟨S1x256, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S1x256x256, .f32⟩
  | 61 => ⟨S256x256, .f32⟩
  | 62 => ⟨S50000x256, .f32⟩
  | 63 => ⟨S1x256, .f32⟩
  | 64 => ⟨S256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S100000x256, .f32⟩
  | 72 => ⟨S400000x1, .f32⟩
  | 73 => ⟨S_, .i32⟩
  | 74 => ⟨S400000, .i32⟩
  | 75 => ⟨S400000, .i1⟩
  | 76 => ⟨S_, .i32⟩
  | 77 => ⟨S400000, .i32⟩
  | 78 => ⟨S400000, .i32⟩
  | 79 => ⟨S400000, .i32⟩
  | 80 => ⟨S400000x1, .i32⟩
  | 81 => ⟨S400000x256, .f32⟩
  | 82 => ⟨S400000x256, .f32⟩
  | 83 => ⟨S400000x256, .f32⟩
  | 84 => ⟨S_, .f32⟩
  | 85 => ⟨S50000x256, .f32⟩
  | 86 => ⟨S400000x1, .i32⟩
  | 87 => ⟨S50000x256, .f32⟩
  | 88 => ⟨S_, .f32⟩
  | 89 => ⟨S50000x256, .f32⟩
  | 90 => ⟨S50000x256, .f32⟩
  | 91 => ⟨S50000x256, .f32⟩
  | 92 => ⟨S1x256x256, .f32⟩
  | 93 => ⟨S256x256, .f32⟩
  | 94 => ⟨S50000x256, .f32⟩
  | 95 => ⟨S1x256, .f32⟩
  | 96 => ⟨S256, .f32⟩
  | 97 => ⟨S1x256, .f32⟩
  | 98 => ⟨S50000x256, .f32⟩
  | 99 => ⟨S50000x256, .f32⟩
  | 100 => ⟨S_, .f32⟩
  | 101 => ⟨S50000x256, .f32⟩
  | 102 => ⟨S50000x256, .f32⟩
  | 103 => ⟨S1x256x256, .f32⟩
  | 104 => ⟨S256x256, .f32⟩
  | 105 => ⟨S50000x256, .f32⟩
  | 106 => ⟨S1x256, .f32⟩
  | 107 => ⟨S256, .f32⟩
  | 108 => ⟨S1x256, .f32⟩
  | 109 => ⟨S50000x256, .f32⟩
  | 110 => ⟨S50000x256, .f32⟩
  | 111 => ⟨S_, .f32⟩
  | 112 => ⟨S50000x256, .f32⟩
  | 113 => ⟨S50000x256, .f32⟩
  | 114 => ⟨S1x256x256, .f32⟩
  | 115 => ⟨S256x256, .f32⟩
  | 116 => ⟨S50000x256, .f32⟩
  | 117 => ⟨S1x256, .f32⟩
  | 118 => ⟨S256, .f32⟩
  | 119 => ⟨S1x256, .f32⟩
  | 120 => ⟨S50000x256, .f32⟩
  | 121 => ⟨S50000x256, .f32⟩
  | 122 => ⟨S_, .f32⟩
  | 123 => ⟨S50000x256, .f32⟩
  | 124 => ⟨S50000x256, .f32⟩
  | 125 => ⟨S50000x512, .f32⟩
  | 126 => ⟨S50000x256, .f32⟩
  | 127 => ⟨S1x256, .f32⟩
  | _ => ⟨S50000x256, .f32⟩

abbrev hbmTy0_1 (i : Nat) : BufTy := match i % 128 with
  | 0 => ⟨S50000x256, .f32⟩
  | 1 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call0_cst : Ref sig .tc := ⟨.hbm, 46, rfl⟩
abbrev main_call0_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call1_cst : Ref sig .tc := ⟨.hbm, 57, rfl⟩
abbrev main_call1_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_call2_cst : Ref sig .tc := ⟨.hbm, 68, rfl⟩
abbrev main_call2_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_2 : Ref sig .tc := ⟨.hbm, 73, rfl⟩
abbrev main_v46 : Ref sig .tc := ⟨.hbm, 74, rfl⟩
abbrev main_v47 : Ref sig .tc := ⟨.hbm, 75, rfl⟩
abbrev main_c_3 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_4 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_5 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call3_cst : Ref sig .tc := ⟨.hbm, 100, rfl⟩
abbrev main_call3_v0 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call4_cst : Ref sig .tc := ⟨.hbm, 111, rfl⟩
abbrev main_call4_v0 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call5_cst : Ref sig .tc := ⟨.hbm, 122, rfl⟩
abbrev main_call5_v0 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩

abbrev nD : Nat := 1
abbrev τ : Topo := Topo.v7x

variable {F : FTy → Type} [FloatOps F]

class Facts₀ : Prop where
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  concatenates_S50000x256_S50000x256_S50000x512_d1 : Shape.Concatenates [S50000x256, S50000x256] S50000x512 1
  dot_S100000x128_S128x256_S100000x256_1_0_0_1_n_n_wf : DotDims.WF S100000x128 S128x256 S100000x256 [1] [0] [0] [1] [] []
  gather_S100000x256_S400000x1_S400000x256_1_0_n_n_0_1_1256_wf : GatherDims.WF S100000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x256_S50000x256_1_0_0_1_n_n_wf : DotDims.WF S50000x256 S256x256 S50000x256 [1] [0] [0] [1] [] []
  dot_S50000x512_S512x256_S50000x256_1_0_0_1_n_n_wf : DotDims.WF S50000x512 S512x256 S50000x256 [1] [0] [0] [1] [] []

variable [Facts₀]

def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.LibRowLinear.lean ====
/-
  A matrix product read at an index, over any extents, and a quotient by a row-wise divisor against the product with its
  reciprocal.

  For a rank-2 contraction `[N, K] · [K, M] → [N, M]` (the left operand's axis 1 against the right operand's axis 0, no
  batch axes) the entry `(n, c)` of the product is `∑ k, l (n, k) · r (k, c)`, the sum over the `K` positions of the one
  contracted axis. It is stated for any dimension record with those dimension numbers (each hypothesis is closed by
  `rfl` at a literal record), so one statement serves products of different heights and widths, a host's
  `dot_general` and a matrix unit's product into a zero accumulator alike. In that form row `n` of the product depends
  on row `n` of the left operand only: the product of a block of rows is that block of rows of the product.

  On the extended reals `x / y` is `x · y⁻¹` whenever `y ≠ 0`, and `1 / y` is then `y⁻¹`; so dividing by a number that
  is at least one is multiplying by its reciprocal, at the infinities too.
-/
import Idealize.ShloMosaic.PureOps.Ideal.Laws
import Idealize.ShloMosaic.Lib.ValueIdx

noncomputable section

namespace Idealize.ShloMosaic.RowLinear

open Idealize.ShloMosaic Idealize.ShloMosaic.ValueIdx

section Record
variable {N K M : Nat}

/-- The literal record of the row-by-column product's dimension numbers. -/
private abbrev ddims (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ :=
  { lhsContracting := [1], rhsContracting := [0], lhsNonContracting := [0], rhsNonContracting := [1],
    lhsBatch := [], rhsBatch := [], wf := wf }

variable (wf : DotDims.WF ⟨2, ![N, K]⟩ ⟨2, ![K, M]⟩ ⟨2, ![N, M]⟩ [1] [0] [0] [1] [] [])
  (j : (⟨2, ![N, M]⟩ : Shape).Idx) (k : (ddims wf).contr.Idx)

/-- Reading a coordinate of the result index at two spellings of one position. -/
private theorem coord_congr (p q : Nat) (hp : p < 2) (hq : q < 2) (h : p = q) :
    (j ⟨p, hp⟩).val = (j ⟨q, hq⟩).val := by subst h; rfl

/-- The left operand's row is the result's row. -/
private theorem lhs_axis0 : ((ddims wf).lhsIdx j k 0).val = (j 0).val := by
  unfold DotDims.lhsIdx
  rw [dif_neg List.not_mem_nil, dif_pos (show (0 : Fin 2) ∈ [(0 : Fin 2)] from List.mem_singleton.mpr rfl)]
  simp only [Fin.val_cast]
  exact coord_congr j _ _ _ _ (by simp)

/-- The left operand's column is the contraction position. -/
private theorem lhs_axis1 : ((ddims wf).lhsIdx j k 1).val = (k ⟨0, by rw [(ddims wf).rank_contr]; exact Nat.one_pos⟩).val :=
  (ddims wf).lhsIdx_val_of_single (cl := 1) rfl j k

/-- The right operand's row is the contraction position. -/
private theorem rhs_axis0 : ((ddims wf).rhsIdx j k 0).val = (k ⟨0, by rw [(ddims wf).rank_contr]; exact Nat.one_pos⟩).val :=
  (ddims wf).rhsIdx_val_of_single (cr := 0) rfl j k

/-- The right operand's column is the result's column. -/
private theorem rhs_axis1 : ((ddims wf).rhsIdx j k 1).val = (j 1).val := by
  unfold DotDims.rhsIdx
  rw [dif_neg List.not_mem_nil, dif_pos (show (1 : Fin 2) ∈ [(1 : Fin 2)] from List.mem_singleton.mpr rfl)]
  simp only [Fin.val_cast]
  exact coord_congr j _ _ _ _ (by simp)

end Record

/-- **The contraction's sum at `(n, c)`**: over the `K` positions of the contracted axis, the left operand's row `n`
    against the right operand's column `c`. -/
theorem contraction_sum {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![N, K]⟩ : Shape).Idx → EReal) (r : (⟨2, ![K, M]⟩ : Shape).Idx → EReal) (n : Fin N) (c : Fin M) :
    ∑ k : d.contr.Idx, l (d.lhsIdx (ix2 n c) k) * r (d.rhsIdx (ix2 n c) k)
      = ∑ k : Fin K, l (ix2 n k) * r (ix2 k c) := by
  obtain ⟨lc, rc, ln, rn, lb, rb, wf⟩ := d
  simp only at hlc hrc hln hrn hlb hrb
  subst hlc hrc hln hrn hlb hrb
  rw [← Equiv.sum_comp (contrEquiv1 (ddims wf) K rfl rfl).symm]
  refine Finset.sum_congr rfl fun k _ => ?_
  have hk := contrEquiv1_symm_val (ddims wf) K rfl rfl k
  have el : (ddims wf).lhsIdx (ix2 n c) ((contrEquiv1 (ddims wf) K rfl rfl).symm k) = ix2 n k := by
    funext a; refine Fin.ext ?_
    match a with
    | ⟨0, _⟩ => exact lhs_axis0 wf _ _
    | ⟨1, _⟩ => exact (lhs_axis1 wf _ _).trans hk
  have er : (ddims wf).rhsIdx (ix2 n c) ((contrEquiv1 (ddims wf) K rfl rfl).symm k) = ix2 k c := by
    funext a; refine Fin.ext ?_
    match a with
    | ⟨0, _⟩ => exact (rhs_axis0 wf _ _).trans hk
    | ⟨1, _⟩ => exact rhs_axis1 wf _ _
  rw [el, er]

/-- **A host's `dot_general` at `(n, c)`**, at the ideal values. -/
theorem dotGeneral_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![N, K]⟩ φ₁) (r : FVec Ideal ⟨2, ![K, M]⟩ φ₂)
    (n : Fin N) (c : Fin M) :
    Host.dotGeneral d prec l r (ix2 n c) = ∑ k : Fin K, l (ix2 n k) * r (ix2 k c) := by
  show FloatOps.dotGeneral d prec _ l r (ix2 n c) = _
  rw [Ideal.dotGeneral_apply]
  exact contraction_sum d hlc hrc hln hrn hlb hrb l r n c

/-- **A matrix unit's product into a zero accumulator at `(n, c)`**, at the ideal values. -/
theorem matmul_zero_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![N, K]⟩ φ₁) (r : FVec Ideal ⟨2, ![K, M]⟩ φ₂)
    (n : Fin N) (c : Fin M) :
    matmul d prec l r (constant ⟨2, ![N, M]⟩ .f32 0x00000000#32) (ix2 n c) = ∑ k : Fin K, l (ix2 n k) * r (ix2 k c) := by
  show FloatOps.matmul d prec l r (constant ⟨2, ![N, M]⟩ .f32 0x00000000#32) (ix2 n c) = _
  rw [Ideal.matmul_constant_zero_apply]
  exact contraction_sum d hlc hrc hln hrn hlb hrb l r n c

/-- **The product of two matrices**, index by index: entry `(n, c)` is row `n` of `x` against column `c` of `w`. -/
def product {N K M : Nat} (x : (⟨2, ![N, K]⟩ : Shape).Idx → EReal) (w : (⟨2, ![K, M]⟩ : Shape).Idx → EReal) :
    (⟨2, ![N, M]⟩ : Shape).Idx → EReal :=
  fun i => ∑ k : Fin K, x (ix2 (i 0 : Fin N) k) * w (ix2 k (i 1 : Fin M))

theorem product_apply {N K M : Nat} (x : (⟨2, ![N, K]⟩ : Shape).Idx → EReal) (w : (⟨2, ![K, M]⟩ : Shape).Idx → EReal)
    (n : Fin N) (c : Fin M) : product x w (ix2 n c) = ∑ k : Fin K, x (ix2 n k) * w (ix2 k c) := rfl

/-- A host's `dot_general` with these dimension numbers is the product. -/
theorem dotGeneral_eq_product {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![N, K]⟩ φ₁) (r : FVec Ideal ⟨2, ![K, M]⟩ φ₂) :
    Host.dotGeneral d prec l r = product l r := by
  funext i
  obtain ⟨n, c, rfl⟩ : ∃ (n : Fin N) (c : Fin M), i = ix2 n c := ⟨i 0, i 1, eq_ix2 i⟩
  exact dotGeneral_apply d hlc hrc hln hrn hlb hrb prec l r n c

/-- A matrix unit's product into a zero accumulator, with these dimension numbers, is the product. -/
theorem matmul_zero_eq_product {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![N, K]⟩ φ₁) (r : FVec Ideal ⟨2, ![K, M]⟩ φ₂) :
    matmul d prec l r (constant ⟨2, ![N, M]⟩ .f32 0x00000000#32) = product l r := by
  funext i
  obtain ⟨n, c, rfl⟩ : ∃ (n : Fin N) (c : Fin M), i = ix2 n c := ⟨i 0, i 1, eq_ix2 i⟩
  exact matmul_zero_apply d hlc hrc hln hrn hlb hrb prec l r n c

/-- **A block of rows**: where row `p` of `xb` is row `n` of `x`, row `p` of `xb · w` is row `n` of `x · w`. -/
theorem product_of_rows {P N K M : Nat} (xb : (⟨2, ![P, K]⟩ : Shape).Idx → EReal) (x : (⟨2, ![N, K]⟩ : Shape).Idx → EReal)
    (w : (⟨2, ![K, M]⟩ : Shape).Idx → EReal) (p : Fin P) (n : Fin N) (c : Fin M)
    (h : ∀ k : Fin K, xb (ix2 p k) = x (ix2 n k)) :
    product xb w (ix2 p c) = product x w (ix2 n c) := by
  rw [product_apply, product_apply]
  exact Finset.sum_congr rfl fun k _ => by rw [h k]

/-- The word `0x3F800000` denotes the number one. -/
theorem ofBits_one_f32 : Ideal.ofBits .f32 0x3F800000#32 = 1 := by
  simp [Ideal.ofBits, Ideal.ieee, -EReal.coe_mul]; norm_num

/-- **Dividing by a number that is at least one is multiplying by its reciprocal**: with `y = max c 1`,
    `x · (1 / y) = x / y` on every pair of extended reals (`y` is not zero, so both sides are `x · y⁻¹`). -/
theorem mul_one_div_max_one (x c : EReal) :
    x * Ideal.div 1 (max c 1) = Ideal.div x (max c 1) := by
  have hy : max c 1 ≠ 0 := ne_of_gt (lt_of_lt_of_le zero_lt_one (le_max_right c 1))
  rw [Ideal.div, Ideal.div, if_neg hy, if_neg hy, one_mul]

end Idealize.ShloMosaic.RowLinear

end
-- ==== Proof.Spec.lean ====
/-
  The mathematics both programs compute, as functions of whole arrays, index by index, on the extended reals.

  A branch takes the aggregated messages `a` (one row per target cell), adds the target features `x`, and sends the
  sum through three layers, layer `l` being `h ↦ max (h · W_l + b_l) 0` with `W_l` the `l`-th 256 × 256 plane of a
  stack of three and `b_l` the `l`-th row of a 3 × 256 table. The two branches' outputs `h0`, `h1` are merged as
  `h0 · Wlo + h1 · Whi + bm`, where `Wlo` and `Whi` are the upper and the lower 256 rows of a 512 × 256 matrix `Wm`.
  Written over the concatenation `[h0 | h1]` (512 columns) the merge is `[h0 | h1] · Wm + bm`: a sum over 512 positions
  is the sum over the first 256 plus the sum over the last 256, in any commutative monoid, so the two forms agree at
  the infinities as well.

  Every one of these functions is row-local: row `n` of the result depends on row `n` of the row-indexed operands
  only. So the result computed on a block of rows is that block of rows of the result.
-/
import Idealize.ShloMosaic.PureOps.Ideal.Laws
import Idealize.ShloMosaic.Lib.ValueIdx
import proofs.«181598_j1425929142863_1_alg».proof.Proof.LibRowLinear

noncomputable section

namespace Cert.Spec

open Idealize.ShloMosaic Idealize.ShloMosaic.ValueIdx Idealize.ShloMosaic.RowLinear

/-- Plane `l` of a stack of three 256 × 256 matrices. -/
def plane (W : (⟨3, ![3, 256, 256]⟩ : Shape).Idx → EReal) (l : Fin 3) : (⟨2, ![256, 256]⟩ : Shape).Idx → EReal :=
  fun j => W (ix3 l (j 0 : Fin 256) (j 1 : Fin 256))

theorem plane_apply (W : (⟨3, ![3, 256, 256]⟩ : Shape).Idx → EReal) (l : Fin 3) (k c : Fin 256) :
    plane W l (ix2 k c) = W (ix3 l k c) := rfl

/-- One layer on `N` rows: `max (h · W_l + b_l) 0`. -/
def dense {N : Nat} (h : (⟨2, ![N, 256]⟩ : Shape).Idx → EReal) (W : (⟨3, ![3, 256, 256]⟩ : Shape).Idx → EReal)
    (b : (⟨2, ![3, 256]⟩ : Shape).Idx → EReal) (l : Fin 3) : (⟨2, ![N, 256]⟩ : Shape).Idx → EReal :=
  fun i => max (product h (plane W l) i + b (ix2 l (i 1 : Fin 256))) 0

theorem dense_apply {N : Nat} (h : (⟨2, ![N, 256]⟩ : Shape).Idx → EReal) (W : (⟨3, ![3, 256, 256]⟩ : Shape).Idx → EReal)
    (b : (⟨2, ![3, 256]⟩ : Shape).Idx → EReal) (l : Fin 3) (n : Fin N) (c : Fin 256) :
    dense h W b l (ix2 n c) = max (product h (plane W l) (ix2 n c) + b (ix2 l c)) 0 := rfl

/-- The residual sum: the aggregated messages plus the target features, entry by entry. -/
def resid {N : Nat} (a x : (⟨2, ![N, 256]⟩ : Shape).Idx → EReal) : (⟨2, ![N, 256]⟩ : Shape).Idx → EReal :=
  fun i => a i + x i

theorem resid_apply {N : Nat} (a x : (⟨2, ![N, 256]⟩ : Shape).Idx → EReal) (i : (⟨2, ![N, 256]⟩ : Shape).Idx) :
    resid a x i = a i + x i := rfl

/-- The three layers in turn. -/
def tower {N : Nat} (h : (⟨2, ![N, 256]⟩ : Shape).Idx → EReal) (W : (⟨3, ![3, 256, 256]⟩ : Shape).Idx → EReal)
    (b : (⟨2, ![3, 256]⟩ : Shape).Idx → EReal) : (⟨2, ![N, 256]⟩ : Shape).Idx → EReal :=
  dense (dense (dense h W b 0) W b 1) W b 2

/-- The merge of two branch outputs: `h0 · Wlo + h1 · Whi + bm`, the bias a one-row table. -/
def merged {N : Nat} (h0 h1 : (⟨2, ![N, 256]⟩ : Shape).Idx → EReal) (Wlo Whi : (⟨2, ![256, 256]⟩ : Shape).Idx → EReal)
    (bm : (⟨2, ![1, 256]⟩ : Shape).Idx → EReal) : (⟨2, ![N, 256]⟩ : Shape).Idx → EReal :=
  fun i => (product h0 Wlo i + product h1 Whi i) + bm (ix2 (0 : Fin 1) (i 1 : Fin 256))

theorem merged_apply {N : Nat} (h0 h1 : (⟨2, ![N, 256]⟩ : Shape).Idx → EReal) (Wlo Whi : (⟨2, ![256, 256]⟩ : Shape).Idx → EReal)
    (bm : (⟨2, ![1, 256]⟩ : Shape).Idx → EReal) (n : Fin N) (c : Fin 256) :
    merged h0 h1 Wlo Whi bm (ix2 n c) = (product h0 Wlo (ix2 n c) + product h1 Whi (ix2 n c)) + bm (ix2 (0 : Fin 1) c) := rfl

/-- The whole result from the two aggregated-message arrays. -/
def out (a0 a1 x : (⟨2, ![50000, 256]⟩ : Shape).Idx → EReal)
    (W0 : (⟨3, ![3, 256, 256]⟩ : Shape).Idx → EReal) (b0 : (⟨2, ![3, 256]⟩ : Shape).Idx → EReal)
    (W1 : (⟨3, ![3, 256, 256]⟩ : Shape).Idx → EReal) (b1 : (⟨2, ![3, 256]⟩ : Shape).Idx → EReal)
    (Wlo Whi : (⟨2, ![256, 256]⟩ : Shape).Idx → EReal) (bm : (⟨2, ![1, 256]⟩ : Shape).Idx → EReal) :
    (⟨2, ![50000, 256]⟩ : Shape).Idx → EReal :=
  merged (tower (resid a0 x) W0 b0) (tower (resid a1 x) W1 b1) Wlo Whi bm

/-- The upper 256 rows of a 512 × 256 matrix. -/
def upper (Wm : (⟨2, ![512, 256]⟩ : Shape).Idx → EReal) : (⟨2, ![256, 256]⟩ : Shape).Idx → EReal :=
  fun j => Wm (ix2 (⟨(j 0).val, by have := idx2_lt0 j; omega⟩ : Fin 512) (j 1 : Fin 256))

/-- The lower 256 rows of a 512 × 256 matrix. -/
def lower (Wm : (⟨2, ![512, 256]⟩ : Shape).Idx → EReal) : (⟨2, ![256, 256]⟩ : Shape).Idx → EReal :=
  fun j => Wm (ix2 (⟨256 + (j 0).val, by have := idx2_lt0 j; omega⟩ : Fin 512) (j 1 : Fin 256))

/-- A vector of 256 entries as a one-row table. -/
def asRow (bm : (⟨1, ![256]⟩ : Shape).Idx → EReal) : (⟨2, ![1, 256]⟩ : Shape).Idx → EReal :=
  fun j => bm (ix1 (j 1 : Fin 256))

theorem upper_apply (Wm : (⟨2, ![512, 256]⟩ : Shape).Idx → EReal) (k c : Fin 256) :
    upper Wm (ix2 k c) = Wm (ix2 (⟨k.val, by omega⟩ : Fin 512) c) := rfl
theorem lower_apply (Wm : (⟨2, ![512, 256]⟩ : Shape).Idx → EReal) (k c : Fin 256) :
    lower Wm (ix2 k c) = Wm (ix2 (⟨256 + k.val, by omega⟩ : Fin 512) c) := rfl
theorem asRow_apply (bm : (⟨1, ![256]⟩ : Shape).Idx → EReal) (u : Fin 1) (c : Fin 256) :
    asRow bm (ix2 u c) = bm (ix1 c) := rfl

/-- The whole result from the two aggregated-message arrays and the arguments as the programs take them. -/
def result (a0 a1 x : (⟨2, ![50000, 256]⟩ : Shape).Idx → EReal)
    (W0 : (⟨3, ![3, 256, 256]⟩ : Shape).Idx → EReal) (b0 : (⟨2, ![3, 256]⟩ : Shape).Idx → EReal)
    (W1 : (⟨3, ![3, 256, 256]⟩ : Shape).Idx → EReal) (b1 : (⟨2, ![3, 256]⟩ : Shape).Idx → EReal)
    (Wm : (⟨2, ![512, 256]⟩ : Shape).Idx → EReal) (bm : (⟨1, ![256]⟩ : Shape).Idx → EReal) :
    (⟨2, ![50000, 256]⟩ : Shape).Idx → EReal :=
  out a0 a1 x W0 b0 W1 b1 (upper Wm) (lower Wm) (asRow bm)

/-! ## Row-locality -/

/-- A layer on a block of rows is that block of rows of the layer. -/
theorem dense_of_rows {P N : Nat} (hb : (⟨2, ![P, 256]⟩ : Shape).Idx → EReal) (h : (⟨2, ![N, 256]⟩ : Shape).Idx → EReal)
    (W : (⟨3, ![3, 256, 256]⟩ : Shape).Idx → EReal) (b : (⟨2, ![3, 256]⟩ : Shape).Idx → EReal) (l : Fin 3)
    (p : Fin P) (n : Fin N) (hrow : ∀ k : Fin 256, hb (ix2 p k) = h (ix2 n k)) (c : Fin 256) :
    dense hb W b l (ix2 p c) = dense h W b l (ix2 n c) := by
  rw [dense_apply, dense_apply, product_of_rows hb h (plane W l) p n c hrow]

/-- The three layers on a block of rows are that block of rows of the three layers. -/
theorem tower_of_rows {P N : Nat} (hb : (⟨2, ![P, 256]⟩ : Shape).Idx → EReal) (h : (⟨2, ![N, 256]⟩ : Shape).Idx → EReal)
    (W : (⟨3, ![3, 256, 256]⟩ : Shape).Idx → EReal) (b : (⟨2, ![3, 256]⟩ : Shape).Idx → EReal)
    (p : Fin P) (n : Fin N) (hrow : ∀ k : Fin 256, hb (ix2 p k) = h (ix2 n k)) (c : Fin 256) :
    tower hb W b (ix2 p c) = tower h W b (ix2 n c) := by
  unfold tower
  exact dense_of_rows _ _ W b 2 p n (fun k => dense_of_rows _ _ W b 1 p n (fun k' => dense_of_rows hb h W b 0 p n hrow k') k) c

/-- The merge on a block of rows is that block of rows of the merge. -/
theorem merged_of_rows {P N : Nat} (g0 g1 : (⟨2, ![P, 256]⟩ : Shape).Idx → EReal) (h0 h1 : (⟨2, ![N, 256]⟩ : Shape).Idx → EReal)
    (Wlo Whi : (⟨2, ![256, 256]⟩ : Shape).Idx → EReal) (bm : (⟨2, ![1, 256]⟩ : Shape).Idx → EReal)
    (p : Fin P) (n : Fin N) (hrow0 : ∀ k : Fin 256, g0 (ix2 p k) = h0 (ix2 n k))
    (hrow1 : ∀ k : Fin 256, g1 (ix2 p k) = h1 (ix2 n k)) (c : Fin 256) :
    merged g0 g1 Wlo Whi bm (ix2 p c) = merged h0 h1 Wlo Whi bm (ix2 n c) := by
  rw [merged_apply, merged_apply, product_of_rows g0 h0 Wlo p n c hrow0, product_of_rows g1 h1 Whi p n c hrow1]

/-! ## A sum over 512 positions in two halves -/

/-- A sum over `Fin 512` is the sum over the first 256 positions plus the sum over the last 256. -/
theorem sum_halves (f : Fin 512 → EReal) :
    ∑ k : Fin 512, f k = ∑ k : Fin 256, f ⟨k.val, by omega⟩ + ∑ k : Fin 256, f ⟨256 + k.val, by omega⟩ := by
  have e := Fin.sum_univ_add (M := EReal) (a := 256) (b := 256) f
  rw [e]
  congr 1

end Cert.Spec

end
-- ==== Proof.Region0.lean ====
/-
  Region 0 of the kernel's program, read as mathematics: a matrix product `x · W` computed fifty row blocks at a time.

  The left operand `x` has 100000 rows of 128 entries, the right operand `W` is 128 × 256, the result has 100000 rows of
  256 entries. Point `t` of the fifty takes rows `2000 t … 2000 t + 1999` of `x` and all of `W`, multiplies them (on the
  extended reals a change of float format is the identity, and a product accumulated onto zero is the product), and
  writes the 2000 × 256 result to rows `2000 t … 2000 t + 1999` of the result array. Row `p` of a block's product
  depends on row `p` of the block only, so it is row `2000 t + p` of `x · W`; hence what point `t` writes is block `t` of
  `x · W`. Every row `r` below 100000 lies in block `r / 2000`, so the fifty blocks fill the array, and the array ends
  holding `x · W`.
-/
import proofs.«181598_j1425929142863_1_alg».proof.Proof.Gen.KernelIdeal.Frame
import proofs.«181598_j1425929142863_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx Idealize.ShloMosaic.RowLinear
open Cert.KernelIdeal Cert.KernelIdeal.Gen

namespace Cert.KernelIdeal.Region0

variable (V : (c : Dev nD) → (b : Ref sig .tc) → Buf (Elt Ideal) ((c : Thread nD τ).loc b))

/-- The zero offsets of a whole-buffer access, however the zeros are spelt. -/
theorem zero_offsets0 : (![0, 0] : Fin 2 → Nat) = fun _ => 0 := funext fun a => by fin_cases a <;> rfl

/-- What the body stores, on the extended reals: the product of the two blocks it loaded. A change of float format
    does nothing there, and a matrix unit's product into a zero accumulator is the product. -/
theorem payload_product0 (x0 : Vec Ideal S2000x128 .f32) (x1 : Vec Ideal S128x256 .f32) :
    k0_pay1 (F := Ideal) x0 x1 = product (N := 2000) (K := 128) (M := 256) x0 x1 := by
  unfold k0_pay1
  have e0 : (truncf .bf16 x0 bitsLt_bf16_f32 : FVec Ideal S2000x128 .bf16) = x0 := funext fun i => rfl
  have e1 : (truncf .bf16 x1 bitsLt_bf16_f32 : FVec Ideal S128x256 .bf16) = x1 := funext fun i => rfl
  refine (matmul_zero_eq_product dot_S2000x128_S128x256_S2000x256_1_0_0_1_n_n rfl rfl rfl rfl rfl rfl none _ _).trans ?_
  rw [e0, e1]

/-- The windows' index maps, decided once over the fifty points: point `t` stages row block `t` of the left operand and
    of the result (block 0 on the column axis), and the one block of the right operand. -/
theorem block_indices0 : ∀ t : Fin cfg0.N,
    win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Row `p` of the left operand's block at point `t` is row `2000 t + p` of the array: a block's coordinate in the
    array is its block index times the block's extent plus the coordinate inside the block. -/
theorem left_block_row0 (c : Dev nD) (t : Fin cfg0.N) (p : Fin 2000) (k : Fin 128) (n : Fin 100000)
    (hn : n.val = 2000 * t.val + p.val) :
    (iblk0 V c 0 t : Vec Ideal S2000x128 .f32) (ix2 p k) = (V c main_arg1 : S100000x128.Idx → EReal) (ix2 n k) := by
  obtain ⟨-, -, e0, e1, -, -⟩ := block_indices0 t
  unfold iblk0
  rw [View.read_apply]
  show V c main_arg1 _ = V c main_arg1 _
  congr 1
  funext a
  apply Fin.ext
  match a with
  | ⟨0, _⟩ => show win0_0.index t (0 : Fin 2) * 2000 + 1 * p.val = n.val; rw [e0, hn]; omega
  | ⟨1, _⟩ => show win0_0.index t (1 : Fin 2) * 128 + 1 * k.val = k.val; rw [e1]; omega

/-- The right operand's block at every point is the whole array. -/
theorem right_block0 (c : Dev nD) (t : Fin cfg0.N) :
    (iblk0 V c 1 t : Vec Ideal S128x256 .f32) = (V c main_arg9 : S128x256.Idx → EReal) := by
  obtain ⟨-, -, -, -, e0, e1⟩ := block_indices0 t
  funext j
  obtain ⟨k, q, rfl⟩ : ∃ (k : Fin 128) (q : Fin 256), j = ix2 k q := ⟨j 0, j 1, eq_ix2 j⟩
  unfold iblk0
  rw [View.read_apply]
  show V c main_arg9 _ = V c main_arg9 _
  congr 1
  funext a
  apply Fin.ext
  match a with
  | ⟨0, _⟩ => show win0_1.index t (0 : Fin 2) * 128 + 1 * k.val = k.val; rw [e0]; omega
  | ⟨1, _⟩ => show win0_1.index t (1 : Fin 2) * 256 + 1 * q.val = q.val; rw [e1]; omega

/-- Entry `(p, q)` of the body's result on blocks whose left rows are rows of `X` and whose right block is `W` is
    entry `(n, q)` of `X · W`: the product of a block of rows is that block of rows of the product. -/
theorem block_result_row0 (x0 : Vec Ideal S2000x128 .f32) (x1 : Vec Ideal S128x256 .f32)
    (X : S100000x128.Idx → EReal) (W : S128x256.Idx → EReal) (p : Fin 2000) (q : Fin 256) (n : Fin 100000)
    (h0 : ∀ k : Fin 128, x0 (ix2 p k) = X (ix2 n k)) (h1 : x1 = W) :
    k0_pay1 (F := Ideal) x0 x1 (ix2 p q) = product (N := 100000) (K := 128) (M := 256) X W (ix2 n q) := by
  rw [payload_product0, h1]
  exact product_of_rows x0 X W p n q h0

/-- What point `t` writes back is block `t` of the product of the two arrays as the region finds them. -/
theorem written_back0 (c : Dev nD) (t : Fin cfg0.N) :
    (dat0 (F := Ideal) V c).flushed 2 t
      = ((cfg0.win 2).blk t).view.read (Elt Ideal)
          (product (N := 100000) (K := 128) (M := 256) (V c main_arg1) (V c main_arg9)) := by
  show (cfg0.win 2).cut (grid0.coords t) ((dat0 V c).after 2 t) = _
  rw [after0_2]
  unfold out0_2
  rw [View.canon_unit_zero zero_offsets0]
  simp only [View.ld_unit_zero (S := S2000x128) zero_offsets0, View.ld_unit_zero (S := S128x256) zero_offsets0]
  obtain ⟨e0, e1, -, -, -, -⟩ := block_indices0 t
  funext j
  obtain ⟨p, q, rfl⟩ : ∃ (p : Fin 2000) (q : Fin 256), j = ix2 p q := ⟨j 0, j 1, eq_ix2 j⟩
  have hN : cfg0.N = 50 := N_0
  have ht : t.val < cfg0.N := t.isLt
  let n : Fin 100000 := ⟨2000 * t.val + p.val, by omega⟩
  have hemb : ((cfg0.win 2).blk t).view.emb (ix2 p q) = (ix2 n q : S100000x256.Idx) := by
    funext a
    apply Fin.ext
    match a with
    | ⟨0, _⟩ => show win0_2.index t (0 : Fin 2) * 2000 + 1 * p.val = 2000 * t.val + p.val; rw [e0]; omega
    | ⟨1, _⟩ => show win0_2.index t (1 : Fin 2) * 256 + 1 * q.val = q.val; rw [e1]; omega
  show k0_pay1 (F := Ideal) (iblk0 V c 0 t) (iblk0 V c 1 t) (ix2 p q)
    = product (N := 100000) (K := 128) (M := 256) (V c main_arg1) (V c main_arg9) (((cfg0.win 2).blk t).view.emb (ix2 p q))
  refine (block_result_row0 (iblk0 V c 0 t) (iblk0 V c 1 t) (V c main_arg1) (V c main_arg9) p q n
    (fun k => left_block_row0 V c t p k n rfl) (right_block0 V c t)).trans ?_
  exact congrArg _ hemb.symm

/-- An index of the result array is in point `t`'s block iff each coordinate is in the block's range on its axis. -/
theorem mem_block0 (t : Fin cfg0.N) (i : S100000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v0).slice (win0_2.rect t)).set ↔ _
  rw [View.set_slice_whole, Rect.mem_set_unit]
  exact Iff.rfl

/-- The fifty row blocks tile the result array: row `r` lies in the block of point `r / 2000`. -/
theorem covered0 (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 50 := N_0
  let t : Fin cfg0.N := ⟨(i 0).val / 2000, by rw [hN]; omega⟩
  have ht : t.val = (i 0).val / 2000 := rfl
  obtain ⟨e0, e1, -, -, -, -⟩ := block_indices0 t
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; rw [e0, ht]; omega
  | ⟨1, _⟩ => show win0_2.index t (1 : Fin 2) * 256 ≤ (i 1).val ∧ (i 1).val < win0_2.index t (1 : Fin 2) * 256 + 256; rw [e1]; omega

/-- The result array after region 0 is the product of the two arrays the region found. -/
theorem final0 (c : Dev nD) :
    (dat0 (F := Ideal) V c).arrAt 2 cfg0.N = product (N := 100000) (K := 128) (M := 256) (V c main_arg1) (V c main_arg9) :=
  (dat0 (F := Ideal) V c).arrAt_eq_of_cover 2 _ (fun t _ => written_back0 V c t) covered0

end Cert.KernelIdeal.Region0

end
-- ==== Proof.Region1.lean ====
/-
  Region 1 of the kernel's program, read as mathematics: a matrix product `x · W` computed fifty row blocks at a time.

  The left operand `x` has 100000 rows of 128 entries, the right operand `W` is 128 × 256, the result has 100000 rows of
  256 entries. Point `t` of the fifty takes rows `2000 t … 2000 t + 1999` of `x` and all of `W`, multiplies them (on the
  extended reals a change of float format is the identity, and a product accumulated onto zero is the product), and
  writes the 2000 × 256 result to rows `2000 t … 2000 t + 1999` of the result array. Row `p` of a block's product
  depends on row `p` of the block only, so it is row `2000 t + p` of `x · W`; hence what point `t` writes is block `t` of
  `x · W`. Every row `r` below 100000 lies in block `r / 2000`, so the fifty blocks fill the array, and the array ends
  holding `x · W`.
-/
import proofs.«181598_j1425929142863_1_alg».proof.Proof.Gen.KernelIdeal.Frame
import proofs.«181598_j1425929142863_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx Idealize.ShloMosaic.RowLinear
open Cert.KernelIdeal Cert.KernelIdeal.Gen

namespace Cert.KernelIdeal.Region1

variable (V : (c : Dev nD) → (b : Ref sig .tc) → Buf (Elt Ideal) ((c : Thread nD τ).loc b))

/-- The zero offsets of a whole-buffer access, however the zeros are spelt. -/
theorem zero_offsets1 : (![0, 0] : Fin 2 → Nat) = fun _ => 0 := funext fun a => by fin_cases a <;> rfl

/-- What the body stores, on the extended reals: the product of the two blocks it loaded. A change of float format
    does nothing there, and a matrix unit's product into a zero accumulator is the product. -/
theorem payload_product1 (x0 : Vec Ideal S2000x128 .f32) (x1 : Vec Ideal S128x256 .f32) :
    k1_pay1 (F := Ideal) x0 x1 = product (N := 2000) (K := 128) (M := 256) x0 x1 := by
  unfold k1_pay1
  have e0 : (truncf .bf16 x0 bitsLt_bf16_f32 : FVec Ideal S2000x128 .bf16) = x0 := funext fun i => rfl
  have e1 : (truncf .bf16 x1 bitsLt_bf16_f32 : FVec Ideal S128x256 .bf16) = x1 := funext fun i => rfl
  refine (matmul_zero_eq_product dot_S2000x128_S128x256_S2000x256_1_0_0_1_n_n rfl rfl rfl rfl rfl rfl none _ _).trans ?_
  rw [e0, e1]

/-- The windows' index maps, decided once over the fifty points: point `t` stages row block `t` of the left operand and
    of the result (block 0 on the column axis), and the one block of the right operand. -/
theorem block_indices1 : ∀ t : Fin cfg1.N,
    win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- Row `p` of the left operand's block at point `t` is row `2000 t + p` of the array: a block's coordinate in the
    array is its block index times the block's extent plus the coordinate inside the block. -/
theorem left_block_row1 (c : Dev nD) (t : Fin cfg1.N) (p : Fin 2000) (k : Fin 128) (n : Fin 100000)
    (hn : n.val = 2000 * t.val + p.val) :
    (iblk1 V c 0 t : Vec Ideal S2000x128 .f32) (ix2 p k) = (V c main_arg2 : S100000x128.Idx → EReal) (ix2 n k) := by
  obtain ⟨-, -, e0, e1, -, -⟩ := block_indices1 t
  unfold iblk1
  rw [View.read_apply]
  show V c main_arg2 _ = V c main_arg2 _
  congr 1
  funext a
  apply Fin.ext
  match a with
  | ⟨0, _⟩ => show win1_0.index t (0 : Fin 2) * 2000 + 1 * p.val = n.val; rw [e0, hn]; omega
  | ⟨1, _⟩ => show win1_0.index t (1 : Fin 2) * 128 + 1 * k.val = k.val; rw [e1]; omega

/-- The right operand's block at every point is the whole array. -/
theorem right_block1 (c : Dev nD) (t : Fin cfg1.N) :
    (iblk1 V c 1 t : Vec Ideal S128x256 .f32) = (V c main_arg10 : S128x256.Idx → EReal) := by
  obtain ⟨-, -, -, -, e0, e1⟩ := block_indices1 t
  funext j
  obtain ⟨k, q, rfl⟩ : ∃ (k : Fin 128) (q : Fin 256), j = ix2 k q := ⟨j 0, j 1, eq_ix2 j⟩
  unfold iblk1
  rw [View.read_apply]
  show V c main_arg10 _ = V c main_arg10 _
  congr 1
  funext a
  apply Fin.ext
  match a with
  | ⟨0, _⟩ => show win1_1.index t (0 : Fin 2) * 128 + 1 * k.val = k.val; rw [e0]; omega
  | ⟨1, _⟩ => show win1_1.index t (1 : Fin 2) * 256 + 1 * q.val = q.val; rw [e1]; omega

/-- Entry `(p, q)` of the body's result on blocks whose left rows are rows of `X` and whose right block is `W` is
    entry `(n, q)` of `X · W`: the product of a block of rows is that block of rows of the product. -/
theorem block_result_row1 (x0 : Vec Ideal S2000x128 .f32) (x1 : Vec Ideal S128x256 .f32)
    (X : S100000x128.Idx → EReal) (W : S128x256.Idx → EReal) (p : Fin 2000) (q : Fin 256) (n : Fin 100000)
    (h0 : ∀ k : Fin 128, x0 (ix2 p k) = X (ix2 n k)) (h1 : x1 = W) :
    k1_pay1 (F := Ideal) x0 x1 (ix2 p q) = product (N := 100000) (K := 128) (M := 256) X W (ix2 n q) := by
  rw [payload_product1, h1]
  exact product_of_rows x0 X W p n q h0

/-- What point `t` writes back is block `t` of the product of the two arrays as the region finds them. -/
theorem written_back1 (c : Dev nD) (t : Fin cfg1.N) :
    (dat1 (F := Ideal) V c).flushed 2 t
      = ((cfg1.win 2).blk t).view.read (Elt Ideal)
          (product (N := 100000) (K := 128) (M := 256) (V c main_arg2) (V c main_arg10)) := by
  show (cfg1.win 2).cut (grid1.coords t) ((dat1 V c).after 2 t) = _
  rw [after1_2]
  unfold out1_2
  rw [View.canon_unit_zero zero_offsets1]
  simp only [View.ld_unit_zero (S := S2000x128) zero_offsets1, View.ld_unit_zero (S := S128x256) zero_offsets1]
  obtain ⟨e0, e1, -, -, -, -⟩ := block_indices1 t
  funext j
  obtain ⟨p, q, rfl⟩ : ∃ (p : Fin 2000) (q : Fin 256), j = ix2 p q := ⟨j 0, j 1, eq_ix2 j⟩
  have hN : cfg1.N = 50 := N_1
  have ht : t.val < cfg1.N := t.isLt
  let n : Fin 100000 := ⟨2000 * t.val + p.val, by omega⟩
  have hemb : ((cfg1.win 2).blk t).view.emb (ix2 p q) = (ix2 n q : S100000x256.Idx) := by
    funext a
    apply Fin.ext
    match a with
    | ⟨0, _⟩ => show win1_2.index t (0 : Fin 2) * 2000 + 1 * p.val = 2000 * t.val + p.val; rw [e0]; omega
    | ⟨1, _⟩ => show win1_2.index t (1 : Fin 2) * 256 + 1 * q.val = q.val; rw [e1]; omega
  show k1_pay1 (F := Ideal) (iblk1 V c 0 t) (iblk1 V c 1 t) (ix2 p q)
    = product (N := 100000) (K := 128) (M := 256) (V c main_arg2) (V c main_arg10) (((cfg1.win 2).blk t).view.emb (ix2 p q))
  refine (block_result_row1 (iblk1 V c 0 t) (iblk1 V c 1 t) (V c main_arg2) (V c main_arg10) p q n
    (fun k => left_block_row1 V c t p k n rfl) (right_block1 V c t)).trans ?_
  exact congrArg _ hemb.symm

/-- An index of the result array is in point `t`'s block iff each coordinate is in the block's range on its axis. -/
theorem mem_block1 (t : Fin cfg1.N) (i : S100000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v1).slice (win1_2.rect t)).set ↔ _
  rw [View.set_slice_whole, Rect.mem_set_unit]
  exact Iff.rfl

/-- The fifty row blocks tile the result array: row `r` lies in the block of point `r / 2000`. -/
theorem covered1 (i : S100000x256.Idx) :
    ∃ t : Fin cfg1.N, (cfg1.win 2).flush t = true ∧ i ∈ ((cfg1.win 2).blk t).view.set := by
  have hi0 : (i 0).val < 100000 := (i 0).isLt
  have hi1 : (i 1).val < 256 := (i 1).isLt
  have hN : cfg1.N = 50 := N_1
  let t : Fin cfg1.N := ⟨(i 0).val / 2000, by rw [hN]; omega⟩
  have ht : t.val = (i 0).val / 2000 := rfl
  obtain ⟨e0, e1, -, -, -, -⟩ := block_indices1 t
  refine ⟨t, flush1_2 t, ?_⟩
  rw [mem_block1]
  intro a
  match a with
  | ⟨0, _⟩ => show win1_2.index t (0 : Fin 2) * 2000 ≤ (i 0).val ∧ (i 0).val < win1_2.index t (0 : Fin 2) * 2000 + 2000; rw [e0, ht]; omega
  | ⟨1, _⟩ => show win1_2.index t (1 : Fin 2) * 256 ≤ (i 1).val ∧ (i 1).val < win1_2.index t (1 : Fin 2) * 256 + 256; rw [e1]; omega

/-- The result array after region 1 is the product of the two arrays the region found. -/
theorem final1 (c : Dev nD) :
    (dat1 (F := Ideal) V c).arrAt 2 cfg1.N = product (N := 100000) (K := 128) (M := 256) (V c main_arg2) (V c main_arg10) :=
  (dat1 (F := Ideal) V c).arrAt_eq_of_cover 2 _ (fun t _ => written_back1 V c t) covered1

end Cert.KernelIdeal.Region1

end
-- ==== Proof.Region2.lean ====
/-
  The fused-layers region of the first branch: the residual sum of the aggregated messages and the target features, sent through three
  layers `h ↦ max (h · W_l + b_l) 0`, computed 2000 rows at a time over 25 grid points.

  Each point stages rows `[2000 t, 2000 t + 2000)` of the two row-indexed arrays, the whole stack of three 256 × 256
  weight planes and the whole 3 × 256 bias table, and writes back the same 2000 rows of the result. On the extended
  reals a change of float format is the identity and the matrix unit's product into a zero accumulator is the sum over
  the contracted axis, so the body's result on a block is the three layers of the specification on that block's rows.
  The layers are row-local, so row `p` of the block's result is row `2000 t + p` of the three layers of the whole
  arrays; and the 25 blocks of 2000 rows tile the 50000 rows, so the array after the region is that function
  everywhere.
-/
import proofs.«181598_j1425929142863_1_alg».proof.Proof.Gen.KernelIdeal.Frame
import proofs.«181598_j1425929142863_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx Idealize.ShloMosaic.RowLinear
open Cert.KernelIdeal Cert.KernelIdeal.Gen

namespace Cert.KernelIdeal.Region2

variable (V : (c : Dev nD) → (b : Ref sig .tc) → Buf (Elt Ideal) ((c : Thread nD τ).loc b))

/-! ## One layer on a block of 2000 rows -/

/-- A unit rectangle of one 256 × 256 plane whose offset is `(l, 0, 0)`, read at `(0, k, c)`, is the stack at
    `(l, k, c)`: the rectangle's embedding adds its offset to the coordinates. -/
theorem ld_plane (W : Vec Ideal S3x256x256 .f32) (l : Fin 3) (off : Fin 3 → Nat)
    (h0 : off 0 = l.val) (h1 : off 1 = 0) (h2 : off 2 = 0)
    (inb : ∀ a, off a + S1x256x256.size a ≤ S3x256x256.size a) (k c : Fin 256) :
    View.ld W (Rect.unit (s := S3x256x256) off S1x256x256.size inb) (ix3 (0 : Fin 1) k c) = W (ix3 l k c) := by
  show W ((Rect.unit (s := S3x256x256) off S1x256x256.size inb).emb (ix3 (0 : Fin 1) k c)) = W (ix3 l k c)
  refine congrArg W (funext fun a => Fin.ext ?_)
  match a with
  | ⟨0, _⟩ => show off 0 + 1 * 0 = l.val; omega
  | ⟨1, _⟩ => show off 1 + 1 * k.val = k.val; omega
  | ⟨2, _⟩ => show off 2 + 1 * c.val = c.val; omega

/-- A unit rectangle of one row of 256 whose offset is `(l, 0)`, read at `(0, c)`, is the table at `(l, c)`. -/
theorem ld_row (b : Vec Ideal S3x256 .f32) (l : Fin 3) (off : Fin 2 → Nat) (h0 : off 0 = l.val) (h1 : off 1 = 0)
    (inb : ∀ a, off a + S1x256.size a ≤ S3x256.size a) (c : Fin 256) :
    View.ld b (Rect.unit (s := S3x256) off S1x256.size inb) (ix2 (0 : Fin 1) c) = b (ix2 l c) := by
  show b ((Rect.unit (s := S3x256) off S1x256.size inb).emb (ix2 (0 : Fin 1) c)) = b (ix2 l c)
  refine congrArg b (funext fun a => Fin.ext ?_)
  match a with
  | ⟨0, _⟩ => show off 0 + 1 * 0 = l.val; omega
  | ⟨1, _⟩ => show off 1 + 1 * c.val = c.val; omega

/-- One layer as the body computes it — the matrix unit's product of the rows with a 256 × 256 plane into a zero
    accumulator, plus the bias row on every row, clipped below at zero — is the layer of the specification, once the
    plane and the row are plane `l` and row `l` of the stack and of the table. Changing the float format changes no
    ideal value. -/
theorem layer_eq (h : FVec Ideal S2000x256 .f32) (W : Vec Ideal S3x256x256 .f32) (b : Vec Ideal S3x256 .f32) (l : Fin 3)
    (Wl : Vec Ideal S1x256x256 .f32) (bl : Vec Ideal S1x256 .f32)
    (hW : ∀ k c : Fin 256, Wl (ix3 (0 : Fin 1) k c) = W (ix3 l k c))
    (hb : ∀ c : Fin 256, bl (ix2 (0 : Fin 1) c) = b (ix2 l c)) :
    maximumf
        (addf
          (matmul dot_S2000x256_S256x256_S2000x256_1_0_0_1_n_n none (truncf .bf16 h bitsLt_bf16_f32)
            (truncf .bf16 (shapeCast S256x256 Wl shapeCasts_S1x256x256_S256x256) bitsLt_bf16_f32)
            (constant (F := Ideal) S2000x256 .f32 0x00000000#32))
          (broadcastTo S2000x256 (shapeCast S1x256 (shapeCast S256 bl shapeCasts_S1x256_S256) shapeCasts_S256_S1x256)
            broadcasts_S1x256_S2000x256))
        (broadcast S2000x256 (Scalar.ofBits (F := Ideal) .f32 0x00000000#32))
      = Cert.Spec.dense (N := 2000) h W b l := by
  funext i
  obtain ⟨p, q, rfl⟩ : ∃ (p : Fin 2000) (q : Fin 256), i = ix2 p q := ⟨i 0, i 1, eq_ix2 i⟩
  rw [maximumf_apply, addf_apply, broadcast_apply,
    matmul_zero_eq_product dot_S2000x256_S256x256_S2000x256_1_0_0_1_n_n rfl rfl rfl rfl rfl rfl none,
    broadcastTo_1b_ab_apply, shapeCast_a_1a_apply, shapeCast_1a_a_apply, hb, Cert.Spec.dense_apply]
  refine congrArg₂ max (congrArg (· + b (ix2 l q)) ?_) Ideal.ofBits_zero_f32
  rw [product_apply, product_apply]
  exact Finset.sum_congr rfl fun k _ => by
    rw [truncf_apply, truncf_apply, shapeCast_1ab_ab_apply, hW, Cert.Spec.plane_apply]

/-! ## The body's result on a block -/

/-- What the body stores, from the block of aggregated messages `a`, the block of target features `x`, the weight
    stack and the bias table: the residual sum sent through the three layers, on the block's 2000 rows. -/
theorem block_eq (a x : Vec Ideal S2000x256 .f32) (W : Vec Ideal S3x256x256 .f32) (b : Vec Ideal S3x256 .f32) :
    k2_pay1 (k2_pay2 a x (View.ld W r2_1) (View.ld b r2_2) (View.ld W r2_3) (View.ld b r2_4) (View.ld W r2_5))
        (k2_pay3 (View.ld b r2_6))
      = Cert.Spec.tower (N := 2000) (Cert.Spec.resid (N := 2000) a x) W b := by
  unfold k2_pay1 k2_pay2 k2_pay3
  dsimp only
  rw [shapeCast_self,
    layer_eq _ W b 0 (View.ld W r2_1) (View.ld b r2_2) (ld_plane W 0 ![0, 0, 0] rfl rfl rfl _) (ld_row b 0 ![0, 0] rfl rfl _),
    layer_eq _ W b 1 (View.ld W r2_3) (View.ld b r2_4) (ld_plane W 1 ![1, 0, 0] rfl rfl rfl _) (ld_row b 1 ![1, 0] rfl rfl _),
    layer_eq _ W b 2 (View.ld W r2_5) (View.ld b r2_6) (ld_plane W 2 ![2, 0, 0] rfl rfl rfl _) (ld_row b 2 ![2, 0] rfl rfl _)]
  rfl

/-! ## From the blocks to the whole array -/

theorem zero_offsets : (![0, 0] : Fin 2 → Nat) = fun _ => 0 := funext fun a => by fin_cases a <;> rfl

/-- The printed index maps, decided over the 25 grid points: the output's block, and the blocks of the two
    row-indexed inputs, sit at row block `t` and column block 0; the weight stack and the bias table are staged whole,
    at block 0 on every axis. -/
theorem index_maps2 : ∀ t : Fin cfg2.N,
    win2_4.index t (0 : Fin 2) = t.val ∧ win2_4.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 3) = 0 ∧ win2_2.index t (1 : Fin 3) = 0 ∧ win2_2.index t (2 : Fin 3) = 0
    ∧ win2_3.index t (0 : Fin 2) = 0 ∧ win2_3.index t (1 : Fin 2) = 0 :=
  (by decide +kernel : ∀ t : Fin grid2.N, _)

/-- Row `p` of point `t`'s block of the aggregated messages is row `2000 t + p` of the array. -/
theorem messages_block2 (c : Dev nD) (t : Fin cfg2.N) (p : Fin 2000) (k : Fin 256) (hp : 2000 * t.val + p.val < 50000) :
    iblk2 V c 0 t (ix2 p k) = V c main_v24 (ix2 (⟨2000 * t.val + p.val, hp⟩ : Fin 50000) k) := by
  obtain ⟨-, -, e0, e1, -⟩ := index_maps2 t
  show V c main_v24 (((cfg2.win 0).blk t).view.emb (ix2 p k)) = V c main_v24 (ix2 (⟨2000 * t.val + p.val, hp⟩ : Fin 50000) k)
  refine congrArg (V c main_v24) (funext fun a => Fin.ext ?_)
  match a with
  | ⟨0, _⟩ => show win2_0.index t (0 : Fin 2) * 2000 + 1 * p.val = 2000 * t.val + p.val; omega
  | ⟨1, _⟩ => show win2_0.index t (1 : Fin 2) * 256 + 1 * k.val = k.val; omega

/-- Row `p` of point `t`'s block of the target features is row `2000 t + p` of the array. -/
theorem features_block2 (c : Dev nD) (t : Fin cfg2.N) (p : Fin 2000) (k : Fin 256) (hp : 2000 * t.val + p.val < 50000) :
    iblk2 V c 1 t (ix2 p k) = V c main_arg0 (ix2 (⟨2000 * t.val + p.val, hp⟩ : Fin 50000) k) := by
  obtain ⟨-, -, -, -, e0, e1, -⟩ := index_maps2 t
  show V c main_arg0 (((cfg2.win 1).blk t).view.emb (ix2 p k)) = V c main_arg0 (ix2 (⟨2000 * t.val + p.val, hp⟩ : Fin 50000) k)
  refine congrArg (V c main_arg0) (funext fun a => Fin.ext ?_)
  match a with
  | ⟨0, _⟩ => show win2_1.index t (0 : Fin 2) * 2000 + 1 * p.val = 2000 * t.val + p.val; omega
  | ⟨1, _⟩ => show win2_1.index t (1 : Fin 2) * 256 + 1 * k.val = k.val; omega

/-- Every point stages the whole weight stack. -/
theorem weights_block2 (c : Dev nD) (t : Fin cfg2.N) : (iblk2 V c 2 t : S3x256x256.Idx → EReal) = V c main_arg11 := by
  obtain ⟨-, -, -, -, -, -, e0, e1, e2, -⟩ := index_maps2 t
  refine funext fun (y : S3x256x256.Idx) => ?_
  show V c main_arg11 (((cfg2.win 2).blk t).view.emb y) = V c main_arg11 y
  refine congrArg (V c main_arg11) (funext fun a => Fin.ext ?_)
  match a with
  | ⟨0, _⟩ => show win2_2.index t (0 : Fin 3) * 3 + 1 * (y 0).val = (y 0).val; omega
  | ⟨1, _⟩ => show win2_2.index t (1 : Fin 3) * 256 + 1 * (y 1).val = (y 1).val; omega
  | ⟨2, _⟩ => show win2_2.index t (2 : Fin 3) * 256 + 1 * (y 2).val = (y 2).val; omega

/-- Every point stages the whole bias table. -/
theorem biases_block2 (c : Dev nD) (t : Fin cfg2.N) : (iblk2 V c 3 t : S3x256.Idx → EReal) = V c main_arg12 := by
  obtain ⟨-, -, -, -, -, -, -, -, -, e0, e1⟩ := index_maps2 t
  refine funext fun (y : S3x256.Idx) => ?_
  show V c main_arg12 (((cfg2.win 3).blk t).view.emb y) = V c main_arg12 y
  refine congrArg (V c main_arg12) (funext fun a => Fin.ext ?_)
  match a with
  | ⟨0, _⟩ => show win2_3.index t (0 : Fin 2) * 3 + 1 * (y 0).val = (y 0).val; omega
  | ⟨1, _⟩ => show win2_3.index t (1 : Fin 2) * 256 + 1 * (y 1).val = (y 1).val; omega

/-- Row `p` of the body's result on point `t`'s blocks is row `n` of the three layers of the whole arrays, when
    row `p` of each row-indexed block is row `n` of its array and the stack and the table are staged whole: the
    layers are row-local. -/
theorem block_rows (ab xb : Vec Ideal S2000x256 .f32) (Wb : Vec Ideal S3x256x256 .f32) (bb : Vec Ideal S3x256 .f32)
    (A X : S50000x256.Idx → EReal) (W : S3x256x256.Idx → EReal) (B : S3x256.Idx → EReal)
    (p : Fin 2000) (n : Fin 50000) (q : Fin 256)
    (ha : ∀ k : Fin 256, ab (ix2 p k) = A (ix2 n k)) (hx : ∀ k : Fin 256, xb (ix2 p k) = X (ix2 n k))
    (hW : Wb = W) (hb : bb = B) :
    k2_pay1 (k2_pay2 ab xb (View.ld Wb r2_1) (View.ld bb r2_2) (View.ld Wb r2_3) (View.ld bb r2_4) (View.ld Wb r2_5))
        (k2_pay3 (View.ld bb r2_6)) (ix2 p q)
      = Cert.Spec.tower (N := 50000) (Cert.Spec.resid (N := 50000) A X) W B (ix2 n q) := by
  subst hW hb
  rw [block_eq]
  exact Cert.Spec.tower_of_rows _ _ Wb bb p n
    (fun k => by rw [Cert.Spec.resid_apply, Cert.Spec.resid_apply, ha, hx]) q

/-- The 2000 rows point `t` writes back are rows `[2000 t, 2000 t + 2000)` of the three layers of the residual sum of
    the whole arrays. -/
theorem written_back2 (c : Dev nD) (t : Fin cfg2.N) :
    (dat2 (F := Ideal) V c).flushed 4 t = ((cfg2.win 4).blk t).view.read (Elt Ideal)
      (Cert.Spec.tower (N := 50000) (Cert.Spec.resid (N := 50000) (V c main_v24) (V c main_arg0))
        (V c main_arg11) (V c main_arg12)) := by
  show (cfg2.win 4).cut (grid2.coords t) ((dat2 V c).after 4 t) = _
  rw [after2_4]
  unfold out2_4
  rw [View.canon_unit_zero zero_offsets]
  simp only [View.ld_unit_zero (S := S2000x256) zero_offsets]
  obtain ⟨e0, e1, -⟩ := index_maps2 t
  have ht : t.val < grid2.N := t.isLt
  rw [N_2] at ht
  refine funext fun (j : S2000x256.Idx) => ?_
  obtain ⟨p, q, rfl⟩ : ∃ (p : Fin 2000) (q : Fin 256), j = ix2 p q := ⟨j 0, j 1, eq_ix2 j⟩
  have hp : 2000 * t.val + p.val < 50000 := by have := p.isLt; omega
  refine (block_rows (iblk2 V c 0 t) (iblk2 V c 1 t) (iblk2 V c 2 t) (iblk2 V c 3 t)
    (V c main_v24) (V c main_arg0) (V c main_arg11) (V c main_arg12) p ⟨2000 * t.val + p.val, hp⟩ q
    (fun k => messages_block2 V c t p k hp) (fun k => features_block2 V c t p k hp) (weights_block2 V c t) (biases_block2 V c t)).trans ?_
  show Cert.Spec.tower (N := 50000) (Cert.Spec.resid (N := 50000) (V c main_v24) (V c main_arg0)) (V c main_arg11) (V c main_arg12)
      (ix2 (⟨2000 * t.val + p.val, hp⟩ : Fin 50000) q)
    = Cert.Spec.tower (N := 50000) (Cert.Spec.resid (N := 50000) (V c main_v24) (V c main_arg0)) (V c main_arg11) (V c main_arg12)
      (((cfg2.win 4).blk t).view.emb (ix2 p q))
  refine congrArg _ (funext fun a => Fin.ext ?_)
  match a with
  | ⟨0, _⟩ => show 2000 * t.val + p.val = win2_4.index t (0 : Fin 2) * 2000 + 1 * p.val; omega
  | ⟨1, _⟩ => show q.val = win2_4.index t (1 : Fin 2) * 256 + 1 * q.val; omega

/-- Membership in the rectangle of the result that point `t` writes back, axis by axis: the coordinate on axis `a`
    lies in the `size a` consecutive positions from `index a · size a`. -/
theorem mem_row_block2 (t : Fin cfg2.N) (i : S50000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v28).slice (win2_4.rect t)).set ↔ _
  rw [View.set_slice_whole, Rect.mem_set_unit]
  exact Iff.rfl

/-- The 25 blocks of 2000 rows tile the 50000 rows: row `r` lies in the block of point `r / 2000`. -/
theorem rows_covered2 (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  have hN : (i 0).val / 2000 < grid2.N := by rw [N_2]; omega
  refine ⟨⟨(i 0).val / 2000, hN⟩, flush2_4 _, ?_⟩
  obtain ⟨e0, e1, -⟩ := index_maps2 ⟨(i 0).val / 2000, hN⟩
  rw [mem_row_block2]
  intro a
  match a with
  | ⟨0, _⟩ =>
    show win2_4.index ⟨(i 0).val / 2000, hN⟩ (0 : Fin 2) * 2000 ≤ (i 0).val ∧ (i 0).val < win2_4.index ⟨(i 0).val / 2000, hN⟩ (0 : Fin 2) * 2000 + 2000
    rw [e0]; show (i 0).val / 2000 * 2000 ≤ (i 0).val ∧ (i 0).val < (i 0).val / 2000 * 2000 + 2000
    omega
  | ⟨1, _⟩ =>
    show win2_4.index ⟨(i 0).val / 2000, hN⟩ (1 : Fin 2) * 256 ≤ (i 1).val ∧ (i 1).val < win2_4.index ⟨(i 0).val / 2000, hN⟩ (1 : Fin 2) * 256 + 256
    rw [e1]; omega

/-- The array after the region: the three layers of the residual sum of the aggregated messages and the target
    features, with the region's weight stack and bias table, on all 50000 rows. -/
theorem final2 (c : Dev nD) :
    (dat2 (F := Ideal) V c).arrAt 4 cfg2.N
      = Cert.Spec.tower (N := 50000) (Cert.Spec.resid (N := 50000) (V c main_v24) (V c main_arg0)) (V c main_arg11) (V c main_arg12) :=
  (dat2 (F := Ideal) V c).arrAt_eq_of_cover 4 _ (fun t _ => written_back2 V c t) (rows_covered2)

end Cert.KernelIdeal.Region2

end
-- ==== Proof.Region3.lean ====
/-
  The fused-layers region of the second branch: the residual sum of the aggregated messages and the target features, sent through three
  layers `h ↦ max (h · W_l + b_l) 0`, computed 2000 rows at a time over 25 grid points.

  Each point stages rows `[2000 t, 2000 t + 2000)` of the two row-indexed arrays, the whole stack of three 256 × 256
  weight planes and the whole 3 × 256 bias table, and writes back the same 2000 rows of the result. On the extended
  reals a change of float format is the identity and the matrix unit's product into a zero accumulator is the sum over
  the contracted axis, so the body's result on a block is the three layers of the specification on that block's rows.
  The layers are row-local, so row `p` of the block's result is row `2000 t + p` of the three layers of the whole
  arrays; and the 25 blocks of 2000 rows tile the 50000 rows, so the array after the region is that function
  everywhere.
-/
import proofs.«181598_j1425929142863_1_alg».proof.Proof.Gen.KernelIdeal.Frame
import proofs.«181598_j1425929142863_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx Idealize.ShloMosaic.RowLinear
open Cert.KernelIdeal Cert.KernelIdeal.Gen

namespace Cert.KernelIdeal.Region3

variable (V : (c : Dev nD) → (b : Ref sig .tc) → Buf (Elt Ideal) ((c : Thread nD τ).loc b))

/-! ## One layer on a block of 2000 rows -/

/-- A unit rectangle of one 256 × 256 plane whose offset is `(l, 0, 0)`, read at `(0, k, c)`, is the stack at
    `(l, k, c)`: the rectangle's embedding adds its offset to the coordinates. -/
theorem ld_plane (W : Vec Ideal S3x256x256 .f32) (l : Fin 3) (off : Fin 3 → Nat)
    (h0 : off 0 = l.val) (h1 : off 1 = 0) (h2 : off 2 = 0)
    (inb : ∀ a, off a + S1x256x256.size a ≤ S3x256x256.size a) (k c : Fin 256) :
    View.ld W (Rect.unit (s := S3x256x256) off S1x256x256.size inb) (ix3 (0 : Fin 1) k c) = W (ix3 l k c) := by
  show W ((Rect.unit (s := S3x256x256) off S1x256x256.size inb).emb (ix3 (0 : Fin 1) k c)) = W (ix3 l k c)
  refine congrArg W (funext fun a => Fin.ext ?_)
  match a with
  | ⟨0, _⟩ => show off 0 + 1 * 0 = l.val; omega
  | ⟨1, _⟩ => show off 1 + 1 * k.val = k.val; omega
  | ⟨2, _⟩ => show off 2 + 1 * c.val = c.val; omega

/-- A unit rectangle of one row of 256 whose offset is `(l, 0)`, read at `(0, c)`, is the table at `(l, c)`. -/
theorem ld_row (b : Vec Ideal S3x256 .f32) (l : Fin 3) (off : Fin 2 → Nat) (h0 : off 0 = l.val) (h1 : off 1 = 0)
    (inb : ∀ a, off a + S1x256.size a ≤ S3x256.size a) (c : Fin 256) :
    View.ld b (Rect.unit (s := S3x256) off S1x256.size inb) (ix2 (0 : Fin 1) c) = b (ix2 l c) := by
  show b ((Rect.unit (s := S3x256) off S1x256.size inb).emb (ix2 (0 : Fin 1) c)) = b (ix2 l c)
  refine congrArg b (funext fun a => Fin.ext ?_)
  match a with
  | ⟨0, _⟩ => show off 0 + 1 * 0 = l.val; omega
  | ⟨1, _⟩ => show off 1 + 1 * c.val = c.val; omega

/-- One layer as the body computes it — the matrix unit's product of the rows with a 256 × 256 plane into a zero
    accumulator, plus the bias row on every row, clipped below at zero — is the layer of the specification, once the
    plane and the row are plane `l` and row `l` of the stack and of the table. Changing the float format changes no
    ideal value. -/
theorem layer_eq (h : FVec Ideal S2000x256 .f32) (W : Vec Ideal S3x256x256 .f32) (b : Vec Ideal S3x256 .f32) (l : Fin 3)
    (Wl : Vec Ideal S1x256x256 .f32) (bl : Vec Ideal S1x256 .f32)
    (hW : ∀ k c : Fin 256, Wl (ix3 (0 : Fin 1) k c) = W (ix3 l k c))
    (hb : ∀ c : Fin 256, bl (ix2 (0 : Fin 1) c) = b (ix2 l c)) :
    maximumf
        (addf
          (matmul dot_S2000x256_S256x256_S2000x256_1_0_0_1_n_n none (truncf .bf16 h bitsLt_bf16_f32)
            (truncf .bf16 (shapeCast S256x256 Wl shapeCasts_S1x256x256_S256x256) bitsLt_bf16_f32)
            (constant (F := Ideal) S2000x256 .f32 0x00000000#32))
          (broadcastTo S2000x256 (shapeCast S1x256 (shapeCast S256 bl shapeCasts_S1x256_S256) shapeCasts_S256_S1x256)
            broadcasts_S1x256_S2000x256))
        (broadcast S2000x256 (Scalar.ofBits (F := Ideal) .f32 0x00000000#32))
      = Cert.Spec.dense (N := 2000) h W b l := by
  funext i
  obtain ⟨p, q, rfl⟩ : ∃ (p : Fin 2000) (q : Fin 256), i = ix2 p q := ⟨i 0, i 1, eq_ix2 i⟩
  rw [maximumf_apply, addf_apply, broadcast_apply,
    matmul_zero_eq_product dot_S2000x256_S256x256_S2000x256_1_0_0_1_n_n rfl rfl rfl rfl rfl rfl none,
    broadcastTo_1b_ab_apply, shapeCast_a_1a_apply, shapeCast_1a_a_apply, hb, Cert.Spec.dense_apply]
  refine congrArg₂ max (congrArg (· + b (ix2 l q)) ?_) Ideal.ofBits_zero_f32
  rw [product_apply, product_apply]
  exact Finset.sum_congr rfl fun k _ => by
    rw [truncf_apply, truncf_apply, shapeCast_1ab_ab_apply, hW, Cert.Spec.plane_apply]

/-! ## The body's result on a block -/

/-- What the body stores, from the block of aggregated messages `a`, the block of target features `x`, the weight
    stack and the bias table: the residual sum sent through the three layers, on the block's 2000 rows. -/
theorem block_eq (a x : Vec Ideal S2000x256 .f32) (W : Vec Ideal S3x256x256 .f32) (b : Vec Ideal S3x256 .f32) :
    k3_pay1 (k3_pay2 a x (View.ld W r3_1) (View.ld b r3_2) (View.ld W r3_3) (View.ld b r3_4) (View.ld W r3_5))
        (k3_pay3 (View.ld b r3_6))
      = Cert.Spec.tower (N := 2000) (Cert.Spec.resid (N := 2000) a x) W b := by
  unfold k3_pay1 k3_pay2 k3_pay3
  dsimp only
  rw [shapeCast_self,
    layer_eq _ W b 0 (View.ld W r3_1) (View.ld b r3_2) (ld_plane W 0 ![0, 0, 0] rfl rfl rfl _) (ld_row b 0 ![0, 0] rfl rfl _),
    layer_eq _ W b 1 (View.ld W r3_3) (View.ld b r3_4) (ld_plane W 1 ![1, 0, 0] rfl rfl rfl _) (ld_row b 1 ![1, 0] rfl rfl _),
    layer_eq _ W b 2 (View.ld W r3_5) (View.ld b r3_6) (ld_plane W 2 ![2, 0, 0] rfl rfl rfl _) (ld_row b 2 ![2, 0] rfl rfl _)]
  rfl

/-! ## From the blocks to the whole array -/

theorem zero_offsets : (![0, 0] : Fin 2 → Nat) = fun _ => 0 := funext fun a => by fin_cases a <;> rfl

/-- The printed index maps, decided over the 25 grid points: the output's block, and the blocks of the two
    row-indexed inputs, sit at row block `t` and column block 0; the weight stack and the bias table are staged whole,
    at block 0 on every axis. -/
theorem index_maps3 : ∀ t : Fin cfg3.N,
    win3_4.index t (0 : Fin 2) = t.val ∧ win3_4.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 3) = 0 ∧ win3_2.index t (1 : Fin 3) = 0 ∧ win3_2.index t (2 : Fin 3) = 0
    ∧ win3_3.index t (0 : Fin 2) = 0 ∧ win3_3.index t (1 : Fin 2) = 0 :=
  (by decide +kernel : ∀ t : Fin grid3.N, _)

/-- Row `p` of point `t`'s block of the aggregated messages is row `2000 t + p` of the array. -/
theorem messages_block3 (c : Dev nD) (t : Fin cfg3.N) (p : Fin 2000) (k : Fin 256) (hp : 2000 * t.val + p.val < 50000) :
    iblk3 V c 0 t (ix2 p k) = V c main_v27 (ix2 (⟨2000 * t.val + p.val, hp⟩ : Fin 50000) k) := by
  obtain ⟨-, -, e0, e1, -⟩ := index_maps3 t
  show V c main_v27 (((cfg3.win 0).blk t).view.emb (ix2 p k)) = V c main_v27 (ix2 (⟨2000 * t.val + p.val, hp⟩ : Fin 50000) k)
  refine congrArg (V c main_v27) (funext fun a => Fin.ext ?_)
  match a with
  | ⟨0, _⟩ => show win3_0.index t (0 : Fin 2) * 2000 + 1 * p.val = 2000 * t.val + p.val; omega
  | ⟨1, _⟩ => show win3_0.index t (1 : Fin 2) * 256 + 1 * k.val = k.val; omega

/-- Row `p` of point `t`'s block of the target features is row `2000 t + p` of the array. -/
theorem features_block3 (c : Dev nD) (t : Fin cfg3.N) (p : Fin 2000) (k : Fin 256) (hp : 2000 * t.val + p.val < 50000) :
    iblk3 V c 1 t (ix2 p k) = V c main_arg0 (ix2 (⟨2000 * t.val + p.val, hp⟩ : Fin 50000) k) := by
  obtain ⟨-, -, -, -, e0, e1, -⟩ := index_maps3 t
  show V c main_arg0 (((cfg3.win 1).blk t).view.emb (ix2 p k)) = V c main_arg0 (ix2 (⟨2000 * t.val + p.val, hp⟩ : Fin 50000) k)
  refine congrArg (V c main_arg0) (funext fun a => Fin.ext ?_)
  match a with
  | ⟨0, _⟩ => show win3_1.index t (0 : Fin 2) * 2000 + 1 * p.val = 2000 * t.val + p.val; omega
  | ⟨1, _⟩ => show win3_1.index t (1 : Fin 2) * 256 + 1 * k.val = k.val; omega

/-- Every point stages the whole weight stack. -/
theorem weights_block3 (c : Dev nD) (t : Fin cfg3.N) : (iblk3 V c 2 t : S3x256x256.Idx → EReal) = V c main_arg13 := by
  obtain ⟨-, -, -, -, -, -, e0, e1, e2, -⟩ := index_maps3 t
  refine funext fun (y : S3x256x256.Idx) => ?_
  show V c main_arg13 (((cfg3.win 2).blk t).view.emb y) = V c main_arg13 y
  refine congrArg (V c main_arg13) (funext fun a => Fin.ext ?_)
  match a with
  | ⟨0, _⟩ => show win3_2.index t (0 : Fin 3) * 3 + 1 * (y 0).val = (y 0).val; omega
  | ⟨1, _⟩ => show win3_2.index t (1 : Fin 3) * 256 + 1 * (y 1).val = (y 1).val; omega
  | ⟨2, _⟩ => show win3_2.index t (2 : Fin 3) * 256 + 1 * (y 2).val = (y 2).val; omega

/-- Every point stages the whole bias table. -/
theorem biases_block3 (c : Dev nD) (t : Fin cfg3.N) : (iblk3 V c 3 t : S3x256.Idx → EReal) = V c main_arg14 := by
  obtain ⟨-, -, -, -, -, -, -, -, -, e0, e1⟩ := index_maps3 t
  refine funext fun (y : S3x256.Idx) => ?_
  show V c main_arg14 (((cfg3.win 3).blk t).view.emb y) = V c main_arg14 y
  refine congrArg (V c main_arg14) (funext fun a => Fin.ext ?_)
  match a with
  | ⟨0, _⟩ => show win3_3.index t (0 : Fin 2) * 3 + 1 * (y 0).val = (y 0).val; omega
  | ⟨1, _⟩ => show win3_3.index t (1 : Fin 2) * 256 + 1 * (y 1).val = (y 1).val; omega

/-- Row `p` of the body's result on point `t`'s blocks is row `n` of the three layers of the whole arrays, when
    row `p` of each row-indexed block is row `n` of its array and the stack and the table are staged whole: the
    layers are row-local. -/
theorem block_rows (ab xb : Vec Ideal S2000x256 .f32) (Wb : Vec Ideal S3x256x256 .f32) (bb : Vec Ideal S3x256 .f32)
    (A X : S50000x256.Idx → EReal) (W : S3x256x256.Idx → EReal) (B : S3x256.Idx → EReal)
    (p : Fin 2000) (n : Fin 50000) (q : Fin 256)
    (ha : ∀ k : Fin 256, ab (ix2 p k) = A (ix2 n k)) (hx : ∀ k : Fin 256, xb (ix2 p k) = X (ix2 n k))
    (hW : Wb = W) (hb : bb = B) :
    k3_pay1 (k3_pay2 ab xb (View.ld Wb r3_1) (View.ld bb r3_2) (View.ld Wb r3_3) (View.ld bb r3_4) (View.ld Wb r3_5))
        (k3_pay3 (View.ld bb r3_6)) (ix2 p q)
      = Cert.Spec.tower (N := 50000) (Cert.Spec.resid (N := 50000) A X) W B (ix2 n q) := by
  subst hW hb
  rw [block_eq]
  exact Cert.Spec.tower_of_rows _ _ Wb bb p n
    (fun k => by rw [Cert.Spec.resid_apply, Cert.Spec.resid_apply, ha, hx]) q

/-- The 2000 rows point `t` writes back are rows `[2000 t, 2000 t + 2000)` of the three layers of the residual sum of
    the whole arrays. -/
theorem written_back3 (c : Dev nD) (t : Fin cfg3.N) :
    (dat3 (F := Ideal) V c).flushed 4 t = ((cfg3.win 4).blk t).view.read (Elt Ideal)
      (Cert.Spec.tower (N := 50000) (Cert.Spec.resid (N := 50000) (V c main_v27) (V c main_arg0))
        (V c main_arg13) (V c main_arg14)) := by
  show (cfg3.win 4).cut (grid3.coords t) ((dat3 V c).after 4 t) = _
  rw [after3_4]
  unfold out3_4
  rw [View.canon_unit_zero zero_offsets]
  simp only [View.ld_unit_zero (S := S2000x256) zero_offsets]
  obtain ⟨e0, e1, -⟩ := index_maps3 t
  have ht : t.val < grid3.N := t.isLt
  rw [N_3] at ht
  refine funext fun (j : S2000x256.Idx) => ?_
  obtain ⟨p, q, rfl⟩ : ∃ (p : Fin 2000) (q : Fin 256), j = ix2 p q := ⟨j 0, j 1, eq_ix2 j⟩
  have hp : 2000 * t.val + p.val < 50000 := by have := p.isLt; omega
  refine (block_rows (iblk3 V c 0 t) (iblk3 V c 1 t) (iblk3 V c 2 t) (iblk3 V c 3 t)
    (V c main_v27) (V c main_arg0) (V c main_arg13) (V c main_arg14) p ⟨2000 * t.val + p.val, hp⟩ q
    (fun k => messages_block3 V c t p k hp) (fun k => features_block3 V c t p k hp) (weights_block3 V c t) (biases_block3 V c t)).trans ?_
  show Cert.Spec.tower (N := 50000) (Cert.Spec.resid (N := 50000) (V c main_v27) (V c main_arg0)) (V c main_arg13) (V c main_arg14)
      (ix2 (⟨2000 * t.val + p.val, hp⟩ : Fin 50000) q)
    = Cert.Spec.tower (N := 50000) (Cert.Spec.resid (N := 50000) (V c main_v27) (V c main_arg0)) (V c main_arg13) (V c main_arg14)
      (((cfg3.win 4).blk t).view.emb (ix2 p q))
  refine congrArg _ (funext fun a => Fin.ext ?_)
  match a with
  | ⟨0, _⟩ => show 2000 * t.val + p.val = win3_4.index t (0 : Fin 2) * 2000 + 1 * p.val; omega
  | ⟨1, _⟩ => show q.val = win3_4.index t (1 : Fin 2) * 256 + 1 * q.val; omega

/-- Membership in the rectangle of the result that point `t` writes back, axis by axis: the coordinate on axis `a`
    lies in the `size a` consecutive positions from `index a · size a`. -/
theorem mem_row_block3 (t : Fin cfg3.N) (i : S50000x256.Idx) :
    i ∈ ((cfg3.win 4).blk t).view.set ↔ ∀ a : Fin 2, win3_4.index t a * S2000x256.size a ≤ (i a).val ∧ (i a).val < win3_4.index t a * S2000x256.size a + S2000x256.size a := by
  show i ∈ ((View.whole main_v29).slice (win3_4.rect t)).set ↔ _
  rw [View.set_slice_whole, Rect.mem_set_unit]
  exact Iff.rfl

/-- The 25 blocks of 2000 rows tile the 50000 rows: row `r` lies in the block of point `r / 2000`. -/
theorem rows_covered3 (i : S50000x256.Idx) :
    ∃ t : Fin cfg3.N, (cfg3.win 4).flush t = true ∧ i ∈ ((cfg3.win 4).blk t).view.set := by
  have hi0 : (i 0).val < 50000 := (i 0).isLt
  have hi1 : (i 1).val < 256 := (i 1).isLt
  have hN : (i 0).val / 2000 < grid3.N := by rw [N_3]; omega
  refine ⟨⟨(i 0).val / 2000, hN⟩, flush3_4 _, ?_⟩
  obtain ⟨e0, e1, -⟩ := index_maps3 ⟨(i 0).val / 2000, hN⟩
  rw [mem_row_block3]
  intro a
  match a with
  | ⟨0, _⟩ =>
    show win3_4.index ⟨(i 0).val / 2000, hN⟩ (0 : Fin 2) * 2000 ≤ (i 0).val ∧ (i 0).val < win3_4.index ⟨(i 0).val / 2000, hN⟩ (0 : Fin 2) * 2000 + 2000
    rw [e0]; show (i 0).val / 2000 * 2000 ≤ (i 0).val ∧ (i 0).val < (i 0).val / 2000 * 2000 + 2000
    omega
  | ⟨1, _⟩ =>
    show win3_4.index ⟨(i 0).val / 2000, hN⟩ (1 : Fin 2) * 256 ≤ (i 1).val ∧ (i 1).val < win3_4.index ⟨(i 0).val / 2000, hN⟩ (1 : Fin 2) * 256 + 256
    rw [e1]; omega

/-- The array after the region: the three layers of the residual sum of the aggregated messages and the target
    features, with the region's weight stack and bias table, on all 50000 rows. -/
theorem final3 (c : Dev nD) :
    (dat3 (F := Ideal) V c).arrAt 4 cfg3.N
      = Cert.Spec.tower (N := 50000) (Cert.Spec.resid (N := 50000) (V c main_v27) (V c main_arg0)) (V c main_arg13) (V c main_arg14) :=
  (dat3 (F := Ideal) V c).arrAt_eq_of_cover 4 _ (fun t _ => written_back3 V c t) (rows_covered3)

end Cert.KernelIdeal.Region3

end
-- ==== Proof.Region4.lean ====
/-
  The merge region, from blocks of rows to the whole array.

  The region computes `h0 · Wlo + h1 · Whi + bm` on 50000 rows in 25 steps. Step `t` takes rows `2000 t` to
  `2000 t + 1999` of the two branch outputs, the two whole 256 × 256 matrices and the whole one-row bias, and writes the
  same 2000 rows of the result. At the ideal values a change of float format changes nothing, a product into a zero
  accumulator is the product, and a one-row table spread over 2000 rows reads its single row everywhere; so what a step
  computes is the merge of its 2000 rows. The merge is row-local: row `p` of the merge of a block whose row `p` is row
  `n` of the arrays is row `n` of the merge of the arrays. Hence step `t` writes rows `2000 t …` of the merge of the
  whole arrays; every row `r` is written by step `r / 2000`; and so the array ends holding the merge.
-/
import proofs.«181598_j1425929142863_1_alg».proof.Proof.Gen.KernelIdeal.Frame
import proofs.«181598_j1425929142863_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx Idealize.ShloMosaic.RowLinear
open Cert.KernelIdeal Cert.KernelIdeal.Gen

namespace Cert.KernelIdeal.Region4

/-! ## One block of rows -/

/-- On one block of 2000 rows the body's arithmetic is the merge of that block: the casts to the same shape and the
    changes of float format are the identity at the ideal values, each product into a zero accumulator is the matrix
    product, and the one-row bias spread over the rows reads its row `0` at every row. -/
theorem block_merge (h0 h1 : Vec Ideal S2000x256 .f32) (A B : Vec Ideal S256x256 .f32) (bm : Vec Ideal S1x256 .f32) :
    k4_pay1 (F := Ideal) h0 h1 A B bm = Cert.Spec.merged (N := 2000) h0 h1 A B bm := by
  unfold k4_pay1
  simp only [shapeCast_self]
  rw [matmul_zero_eq_product _ rfl rfl rfl rfl rfl rfl, matmul_zero_eq_product _ rfl rfl rfl rfl rfl rfl]
  funext j
  obtain ⟨p, q, rfl⟩ : ∃ (p : Fin 2000) (q : Fin 256), j = ix2 p q := ⟨j 0, j 1, eq_ix2 j⟩
  rw [Cert.Spec.merged_apply, addf_apply, addf_apply, broadcastTo_1b_ab_apply]
  rfl

/-- Row-locality in the form the blocks need: if the block's matrices and bias ARE the arrays' and row `p` of each
    row-indexed block is row `n` of its array, then row `p` of the block's merge is row `n` of the arrays' merge. -/
theorem merged_block (g0 g1 : Vec Ideal S2000x256 .f32) (Ab Bb : Vec Ideal S256x256 .f32) (bb : Vec Ideal S1x256 .f32)
    (h0 h1 : (⟨2, ![50000, 256]⟩ : Shape).Idx → EReal) (A B : (⟨2, ![256, 256]⟩ : Shape).Idx → EReal)
    (bm : (⟨2, ![1, 256]⟩ : Shape).Idx → EReal) (hA : Ab = A) (hB : Bb = B) (hb : bb = bm)
    (p : Fin 2000) (n : Fin 50000) (hrow0 : ∀ k : Fin 256, g0 (ix2 p k) = h0 (ix2 n k))
    (hrow1 : ∀ k : Fin 256, g1 (ix2 p k) = h1 (ix2 n k)) (q : Fin 256) :
    Cert.Spec.merged (N := 2000) g0 g1 Ab Bb bb (ix2 p q) = Cert.Spec.merged (N := 50000) h0 h1 A B bm (ix2 n q) := by
  subst hA hB hb
  exact Cert.Spec.merged_of_rows g0 g1 h0 h1 Ab Bb bb p n hrow0 hrow1 q

/-! ## Which rows a step holds -/

/-- The pair of zero offsets, as the constant function. -/
theorem zeros2 : (![0, 0] : Fin 2 → Nat) = fun _ => 0 := funext fun a => by fin_cases a <;> rfl

/-- The block indices at step `t`, decided over the 25 steps: the result and the two branch outputs are at row block
    `t`, column block `0`; the two matrices and the bias are at block `(0, 0)`. -/
theorem block_indices : ∀ t : Fin cfg4.N,
    win4_5.index t (0 : Fin 2) = t.val ∧ win4_5.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- There are 25 steps. -/
theorem point_lt (t : Fin cfg4.N) : t.val < 25 := by
  have h := t.isLt
  have e : cfg4.N = 25 := N_4
  omega

variable (V : (c : Dev nD) → (b : Ref sig .tc) → Buf (Elt Ideal) ((c : Thread nD τ).loc b))

/-- Row `p` of the first branch output's block at step `t` is row `2000 t + p` of the array: a coordinate in the array
    is the block index times the block's extent plus the coordinate inside the block. -/
theorem rows0 (c : Dev nD) (t : Fin cfg4.N) (p : Fin 2000) (k : Fin 256) :
    iblk4 V c 0 t (ix2 p k)
      = V c main_v28 (ix2 (⟨2000 * t.val + p.val, by have := point_lt t; omega⟩ : Fin 50000) k) := by
  obtain ⟨-, -, e0, e1, -⟩ := block_indices t
  have ht := point_lt t
  show V c main_v28 (((cfg4.win 0).blk t).view.emb (ix2 p k)) = V c main_v28 _
  refine congrArg _ ?_
  funext a; apply Fin.ext
  match a with
  | ⟨0, _⟩ => show win4_0.index t (0 : Fin 2) * 2000 + 1 * p.val = 2000 * t.val + p.val; omega
  | ⟨1, _⟩ => show win4_0.index t (1 : Fin 2) * 256 + 1 * k.val = k.val; omega

/-- The same for the second branch output. -/
theorem rows1 (c : Dev nD) (t : Fin cfg4.N) (p : Fin 2000) (k : Fin 256) :
    iblk4 V c 1 t (ix2 p k)
      = V c main_v29 (ix2 (⟨2000 * t.val + p.val, by have := point_lt t; omega⟩ : Fin 50000) k) := by
  obtain ⟨-, -, -, -, e0, e1, -⟩ := block_indices t
  have ht := point_lt t
  show V c main_v29 (((cfg4.win 1).blk t).view.emb (ix2 p k)) = V c main_v29 _
  refine congrArg _ ?_
  funext a; apply Fin.ext
  match a with
  | ⟨0, _⟩ => show win4_1.index t (0 : Fin 2) * 2000 + 1 * p.val = 2000 * t.val + p.val; omega
  | ⟨1, _⟩ => show win4_1.index t (1 : Fin 2) * 256 + 1 * k.val = k.val; omega

/-- The first matrix's block at any step is the whole matrix: block `(0, 0)` of extents equal to the array's. -/
theorem whole2 (c : Dev nD) (t : Fin cfg4.N) :
    (iblk4 V c 2 t : S256x256.Idx → EReal) = V c main_v30 := by
  obtain ⟨-, -, -, -, -, -, e0, e1, -⟩ := block_indices t
  funext y
  show V c main_v30 (((cfg4.win 2).blk t).view.emb y) = V c main_v30 y
  refine congrArg _ ?_
  funext a; apply Fin.ext
  match a with
  | ⟨0, _⟩ => show win4_2.index t (0 : Fin 2) * 256 + 1 * (y 0).val = (y 0).val; omega
  | ⟨1, _⟩ => show win4_2.index t (1 : Fin 2) * 256 + 1 * (y 1).val = (y 1).val; omega

/-- The second matrix's block at any step is the whole matrix. -/
theorem whole3 (c : Dev nD) (t : Fin cfg4.N) :
    (iblk4 V c 3 t : S256x256.Idx → EReal) = V c main_v31 := by
  obtain ⟨-, -, -, -, -, -, -, -, e0, e1, -⟩ := block_indices t
  funext y
  show V c main_v31 (((cfg4.win 3).blk t).view.emb y) = V c main_v31 y
  refine congrArg _ ?_
  funext a; apply Fin.ext
  match a with
  | ⟨0, _⟩ => show win4_3.index t (0 : Fin 2) * 256 + 1 * (y 0).val = (y 0).val; omega
  | ⟨1, _⟩ => show win4_3.index t (1 : Fin 2) * 256 + 1 * (y 1).val = (y 1).val; omega

/-- The bias's block at any step is the whole one-row table. -/
theorem whole4 (c : Dev nD) (t : Fin cfg4.N) :
    (iblk4 V c 4 t : S1x256.Idx → EReal) = V c main_v32 := by
  obtain ⟨-, -, -, -, -, -, -, -, -, -, e0, e1⟩ := block_indices t
  funext y
  show V c main_v32 (((cfg4.win 4).blk t).view.emb y) = V c main_v32 y
  refine congrArg _ ?_
  funext a; apply Fin.ext
  match a with
  | ⟨0, _⟩ => show win4_4.index t (0 : Fin 2) * 1 + 1 * (y 0).val = (y 0).val; omega
  | ⟨1, _⟩ => show win4_4.index t (1 : Fin 2) * 256 + 1 * (y 1).val = (y 1).val; omega

/-! ## What a step writes, and which rows are written -/

/-- Step `t` writes back rows `2000 t` to `2000 t + 1999` of the merge of the whole arrays: the body's one store covers
    its buffer and its loads read whole buffers, its payload is the block's merge, and by row-locality row `p` of that
    is row `2000 t + p` of the arrays' merge. -/
theorem point_writes_rows (c : Dev nD) (t : Fin cfg4.N) :
    (dat4 (F := Ideal) V c).flushed 5 t
      = ((cfg4.win 5).blk t).view.read (Elt Ideal)
          (Cert.Spec.merged (N := 50000) (V c main_v28) (V c main_v29) (V c main_v30) (V c main_v31) (V c main_v32)) := by
  show (cfg4.win 5).cut (grid4.coords t) ((dat4 V c).after 5 t) = _
  rw [after4_5]
  unfold out4_5
  rw [View.canon_unit_zero zeros2]
  simp only [View.ld_unit_zero (S := S2000x256) zeros2, View.ld_unit_zero (S := S256x256) zeros2,
    View.ld_unit_zero (S := S1x256) zeros2]
  funext j
  obtain ⟨p, q, rfl⟩ : ∃ (p : Fin 2000) (q : Fin 256), j = ix2 p q := ⟨j 0, j 1, eq_ix2 j⟩
  refine (congrFun (block_merge (iblk4 V c 0 t) (iblk4 V c 1 t) (iblk4 V c 2 t) (iblk4 V c 3 t) (iblk4 V c 4 t)) (ix2 p q)).trans ?_
  obtain ⟨e0, e1, -⟩ := block_indices t
  have ht := point_lt t
  have hemb : ((cfg4.win 5).blk t).view.emb (ix2 p q)
      = ix2 (⟨2000 * t.val + p.val, by omega⟩ : Fin 50000) q := by
    funext a; apply Fin.ext
    match a with
    | ⟨0, _⟩ => show win4_5.index t (0 : Fin 2) * 2000 + 1 * p.val = 2000 * t.val + p.val; omega
    | ⟨1, _⟩ => show win4_5.index t (1 : Fin 2) * 256 + 1 * q.val = q.val; omega
  show _ = Cert.Spec.merged (N := 50000) (V c main_v28) (V c main_v29) (V c main_v30) (V c main_v31) (V c main_v32)
    (((cfg4.win 5).blk t).view.emb (ix2 p q))
  rw [hemb]
  exact merged_block _ _ _ _ _ _ _ _ _ _ (whole2 V c t) (whole3 V c t) (whole4 V c t) p _
    (fun k => rows0 V c t p k) (fun k => rows1 V c t p k) q

/-- An index of the result array is among the rows step `t` writes iff each coordinate lies in the block's range on
    its axis. -/
theorem mem_rows_of_point (t : Fin cfg4.N) (i : S50000x256.Idx) :
    i ∈ ((cfg4.win 5).blk t).view.set ↔ ∀ a : Fin 2, win4_5.index t a * S2000x256.size a ≤ (i a).val
      ∧ (i a).val < win4_5.index t a * S2000x256.size a + S2000x256.size a := by
  show i ∈ ((View.whole main_v33).slice (win4_5.rect t)).set ↔ _
  rw [View.set_slice_whole, Rect.mem_set_unit]
  exact Iff.rfl

/-- Every index is written: row `r` by step `r / 2000`, which is below 25 since `r < 50000`, and
    `2000 (r / 2000) ≤ r < 2000 (r / 2000) + 2000`; the 256 columns are one block. -/
theorem every_row_written (i : S50000x256.Idx) :
    ∃ t : Fin cfg4.N, (cfg4.win 5).flush t = true ∧ i ∈ ((cfg4.win 5).blk t).view.set := by
  have hi0 : (i 0).val < 50000 := (i 0).isLt
  have hi1 : (i 1).val < 256 := (i 1).isLt
  have hN : cfg4.N = 25 := N_4
  obtain ⟨t, ht⟩ : ∃ t : Fin cfg4.N, t.val = (i 0).val / 2000 := ⟨⟨(i 0).val / 2000, by omega⟩, rfl⟩
  obtain ⟨e0, e1, -⟩ := block_indices t
  refine ⟨t, flush4_5 t, ?_⟩
  rw [mem_rows_of_point]
  intro a
  match a with
  | ⟨0, _⟩ =>
    show win4_5.index t (0 : Fin 2) * 2000 ≤ (i 0).val ∧ (i 0).val < win4_5.index t (0 : Fin 2) * 2000 + 2000
    omega
  | ⟨1, _⟩ =>
    show win4_5.index t (1 : Fin 2) * 256 ≤ (i 1).val ∧ (i 1).val < win4_5.index t (1 : Fin 2) * 256 + 256
    omega

/-- **The result array after the region** is the merge of the arrays the region found: every step writes its rows of
    that one function, and the steps' rows cover the array. -/
theorem final4 (c : Dev nD) :
    (dat4 (F := Ideal) V c).arrAt 5 cfg4.N
      = Cert.Spec.merged (N := 50000) (V c main_v28) (V c main_v29) (V c main_v30) (V c main_v31) (V c main_v32) :=
  (dat4 (F := Ideal) V c).arrAt_eq_of_cover 5 _ (fun t _ => point_writes_rows V c t) every_row_written

end Cert.KernelIdeal.Region4

end
-- ==== Proof.Chain.lean ====
/-
  What the kernel's result array holds after the run, walked back to the launch memory.

  The run's buffer contents at each boundary of @main are a fold: a region leaves each of its arrays at what its
  write-backs leave and every other buffer as it found it; a stretch of host operations leaves each result buffer
  at its operation's value and every other buffer as it found it. Reading the fold backwards from the result array:
  the merge region's output is the merge of its five staged arrays (its region's value); two of those are the two
  fused-layers regions' outputs, each the three layers of a residual sum of an aggregated-message array and the
  target features; the other three are slices and a reshape of two arguments. Each aggregated-message array is the
  branch's host chain of a source product — a source-product region's output — and of three arguments. No region
  and no host operation writes an argument, so wherever the walk meets one it reads the launch memory.
-/
import proofs.«181598_j1425929142863_1_alg».proof.Proof.Gen.KernelIdeal.Frame
import proofs.«181598_j1425929142863_1_alg».proof.Proof.Spec
import proofs.«181598_j1425929142863_1_alg».proof.Proof.Region0
import proofs.«181598_j1425929142863_1_alg».proof.Proof.Region1
import proofs.«181598_j1425929142863_1_alg».proof.Proof.Region2
import proofs.«181598_j1425929142863_1_alg».proof.Proof.Region3
import proofs.«181598_j1425929142863_1_alg».proof.Proof.Region4
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.StableHlo
open Idealize.ShloMosaic.Pipeline (Dat)
open Idealize.ShloMosaic.ValueIdx Idealize.ShloMosaic.RowLinear
open Cert.KernelIdeal Cert.KernelIdeal.Gen

namespace Cert.KernelIdeal.Chain

/-- One branch's host operations between the source product and the fused layers, as one function: the column
    indices wrapped once where negative, the product's rows gathered at them, each gathered row scaled by its edge
    value, and the scaled rows added into the rows the row indices name, from zero. -/
def aggOf {F : FTy → Type} [FloatOps F] (s : (⟨S100000x256, .f32⟩ : BufTy).Contents (Elt F)) (vals : (⟨S400000, .f32⟩ : BufTy).Contents (Elt F))
    (rows cols : (⟨S400000, .i32⟩ : BufTy).Contents (Elt F)) : (⟨S50000x256, .f32⟩ : BufTy).Contents (Elt F) :=
  Host.scatterAdd scatter_S50000x256_S400000x1_S400000x256_1_0_0_1
    (broadcastInDim S50000x256 ![] bcast_S_S50000x256 (constant S_ .f32 0x00000000#32))
    (broadcastInDim S400000x1 ![0] bcast_S400000_S400000x1_0 rows)
    (mulf (broadcastInDim S400000x256 ![0, 1] bcast_S400000x1_S400000x256_0_1 (broadcastInDim S400000x1 ![0] bcast_S400000_S400000x1_0 vals))
      (Host.gather gather_S100000x256_S400000x1_S400000x256_1_0_n_n_0_1_1256 s
        (broadcastInDim S400000x1 ![0] bcast_S400000_S400000x1_0
          (select (cmpi .slt cols (broadcastInDim S400000 ![] bcast_S_S400000 (constantI S_ 32 0#32)))
            (addi cols (broadcastInDim S400000 ![] bcast_S_S400000 (constantI S_ 32 100000#32))) cols))))

variable (m : (ℓ : Loc nD τ sig) → Buf (Elt Ideal) ℓ) (ρ : Dev nD → PrngReg)

/-! ## The contents at each boundary, walked back to the launch memory -/

/-- After the two source products an argument neither of them stages or writes is as launched. -/
theorem W2_keep (c : Dev nD) (b : Ref sig .tc) (h1 : ∀ w, Pipeline.arrRef spec1 w ≠ b) (h0 : ∀ w, Pipeline.arrRef spec0 w ≠ b) :
    W2 m ρ c (Proc.devRef .tc b) = m ((c : Thread nD τ).loc b) :=
  (W2_of_ne m ρ c b h1).trans (W1_of_ne m ρ c b h0)

/-- After the two source products the first product's array holds the product of the first pair of arguments. -/
theorem W2_v0 (c : Dev nD) :
    W2 m ρ c (Proc.devRef .tc main_v0)
      = product (N := 100000) (K := 128) (M := 256) (m ((c : Thread nD τ).loc main_arg1)) (m ((c : Thread nD τ).loc main_arg9)) :=
  (W2_of_ne m ρ c main_v0 (by decide)).trans ((W1_arr m ρ c 2).trans (Cert.KernelIdeal.Region0.final0 (V0 m ρ) c))

/-- After the two source products the second product's array holds the product of the second pair of arguments. -/
theorem W2_v1 (c : Dev nD) :
    W2 m ρ c (Proc.devRef .tc main_v1)
      = product (N := 100000) (K := 128) (M := 256) (m ((c : Thread nD τ).loc main_arg2)) (m ((c : Thread nD τ).loc main_arg10)) := by
  refine (W2_arr m ρ c 2).trans ((Cert.KernelIdeal.Region1.final1 (V1 m ρ) c).trans ?_)
  rw [show V1 m ρ c main_arg2 = m ((c : Thread nD τ).loc main_arg2) from W1_of_ne m ρ c main_arg2 (by decide),
    show V1 m ρ c main_arg10 = m ((c : Thread nD τ).loc main_arg10) from W1_of_ne m ρ c main_arg10 (by decide)]

/-- At the first fused-layers region's entry the first branch's aggregated messages are the branch's host chain of
    the first product and the first branch's edge values, row and column indices. -/
theorem W3_v24 (c : Dev nD) :
    W3 m ρ c (Proc.devRef .tc main_v24)
      = aggOf (W2 m ρ c (Proc.devRef .tc main_v0)) (W2 m ρ c (Proc.devRef .tc main_arg3))
          (W2 m ρ c (Proc.devRef .tc main_arg5)) (W2 m ρ c (Proc.devRef .tc main_arg6)) := by
  show StableHlo.after hostOps2 (W2 m ρ c) (Proc.devRef .tc main_v24) = _
  after_results
  rfl

/-- The same for the second branch. -/
theorem W3_v27 (c : Dev nD) :
    W3 m ρ c (Proc.devRef .tc main_v27)
      = aggOf (W2 m ρ c (Proc.devRef .tc main_v1)) (W2 m ρ c (Proc.devRef .tc main_arg4))
          (W2 m ρ c (Proc.devRef .tc main_arg7)) (W2 m ρ c (Proc.devRef .tc main_arg8)) := by
  show StableHlo.after hostOps2 (W2 m ρ c) (Proc.devRef .tc main_v27) = _
  after_results
  rfl

/-- The first stretch of host operations writes no argument. -/
theorem W3_keep (c : Dev nD) (b : Ref sig .tc) (hb : b = main_arg0 ∨ b = main_arg11 ∨ b = main_arg12 ∨ b = main_arg13 ∨ b = main_arg14 ∨ b = main_arg15 ∨ b = main_arg16) :
    W3 m ρ c (Proc.devRef .tc b) = W2 m ρ c (Proc.devRef .tc b) := by
  show StableHlo.after hostOps2 (W2 m ρ c) (Proc.devRef .tc b) = _
  rcases hb with rfl | rfl | rfl | rfl | rfl | rfl | rfl <;> after_results

/-- At the first fused-layers region's entry each argument it stages is as launched. -/
theorem W3_arg (c : Dev nD) (b : Ref sig .tc) (hb : b = main_arg0 ∨ b = main_arg11 ∨ b = main_arg12 ∨ b = main_arg13 ∨ b = main_arg14 ∨ b = main_arg15 ∨ b = main_arg16) :
    W3 m ρ c (Proc.devRef .tc b) = m ((c : Thread nD τ).loc b) := by
  refine (W3_keep m ρ c b hb).trans ?_
  rcases hb with rfl | rfl | rfl | rfl | rfl | rfl | rfl <;> exact W2_keep m ρ c _ (by decide) (by decide)

/-- The first branch's aggregated messages, from the launch memory. -/
abbrev agg0 (c : Dev nD) : (⟨S50000x256, .f32⟩ : BufTy).Contents (Elt Ideal) :=
  aggOf (product (N := 100000) (K := 128) (M := 256) (m ((c : Thread nD τ).loc main_arg1)) (m ((c : Thread nD τ).loc main_arg9)))
    (m ((c : Thread nD τ).loc main_arg3)) (m ((c : Thread nD τ).loc main_arg5)) (m ((c : Thread nD τ).loc main_arg6))

/-- The second branch's aggregated messages, from the launch memory. -/
abbrev agg1 (c : Dev nD) : (⟨S50000x256, .f32⟩ : BufTy).Contents (Elt Ideal) :=
  aggOf (product (N := 100000) (K := 128) (M := 256) (m ((c : Thread nD τ).loc main_arg2)) (m ((c : Thread nD τ).loc main_arg10)))
    (m ((c : Thread nD τ).loc main_arg4)) (m ((c : Thread nD τ).loc main_arg7)) (m ((c : Thread nD τ).loc main_arg8))

theorem W3_v24_eq (c : Dev nD) : W3 m ρ c (Proc.devRef .tc main_v24) = agg0 m c := by
  rw [W3_v24, W2_v0, W2_keep m ρ c main_arg3 (by decide) (by decide), W2_keep m ρ c main_arg5 (by decide) (by decide),
    W2_keep m ρ c main_arg6 (by decide) (by decide)]

theorem W3_v27_eq (c : Dev nD) : W3 m ρ c (Proc.devRef .tc main_v27) = agg1 m c := by
  rw [W3_v27, W2_v1, W2_keep m ρ c main_arg4 (by decide) (by decide), W2_keep m ρ c main_arg7 (by decide) (by decide),
    W2_keep m ρ c main_arg8 (by decide) (by decide)]

/-- After the first fused-layers region its result array holds the three layers of the first branch's residual sum. -/
theorem W4_v28 (c : Dev nD) :
    W4 m ρ c (Proc.devRef .tc main_v28)
      = Cert.Spec.tower (N := 50000) (Cert.Spec.resid (N := 50000) (agg0 m c) (m ((c : Thread nD τ).loc main_arg0)))
          (m ((c : Thread nD τ).loc main_arg11)) (m ((c : Thread nD τ).loc main_arg12)) := by
  refine (W4_arr m ρ c 4).trans ((Cert.KernelIdeal.Region2.final2 (V3 m ρ) c).trans ?_)
  rw [show V3 m ρ c main_v24 = agg0 m c from W3_v24_eq m ρ c,
    show V3 m ρ c main_arg0 = m ((c : Thread nD τ).loc main_arg0) from W3_arg m ρ c main_arg0 (.inl rfl),
    show V3 m ρ c main_arg11 = m ((c : Thread nD τ).loc main_arg11) from W3_arg m ρ c main_arg11 (.inr (.inl rfl)),
    show V3 m ρ c main_arg12 = m ((c : Thread nD τ).loc main_arg12) from W3_arg m ρ c main_arg12 (.inr (.inr (.inl rfl)))]

/-- The first fused-layers region stages the target features and never writes them back. -/
theorem W4_arg0 (c : Dev nD) : W4 m ρ c (Proc.devRef .tc main_arg0) = m ((c : Thread nD τ).loc main_arg0) :=
  (W4_arr m ρ c 1).trans (((dat2 (V3 m ρ) c).arrAt_in 1 rfl _).trans ((A_eq2 (V3 m ρ) c 1).trans (W3_arg m ρ c main_arg0 (.inl rfl))))

/-- After the second fused-layers region its result array holds the three layers of the second branch's residual sum. -/
theorem W5_v29 (c : Dev nD) :
    W5 m ρ c (Proc.devRef .tc main_v29)
      = Cert.Spec.tower (N := 50000) (Cert.Spec.resid (N := 50000) (agg1 m c) (m ((c : Thread nD τ).loc main_arg0)))
          (m ((c : Thread nD τ).loc main_arg13)) (m ((c : Thread nD τ).loc main_arg14)) := by
  refine (W5_arr m ρ c 4).trans ((Cert.KernelIdeal.Region3.final3 (V4 m ρ) c).trans ?_)
  rw [show V4 m ρ c main_v27 = agg1 m c from (W4_of_ne m ρ c main_v27 (by decide)).trans (W3_v27_eq m ρ c),
    show V4 m ρ c main_arg0 = m ((c : Thread nD τ).loc main_arg0) from W4_arg0 m ρ c,
    show V4 m ρ c main_arg13 = m ((c : Thread nD τ).loc main_arg13) from
      (W4_of_ne m ρ c main_arg13 (by decide)).trans (W3_arg m ρ c main_arg13 (.inr (.inr (.inr (.inl rfl))))),
    show V4 m ρ c main_arg14 = m ((c : Thread nD τ).loc main_arg14) from
      (W4_of_ne m ρ c main_arg14 (by decide)).trans (W3_arg m ρ c main_arg14 (.inr (.inr (.inr (.inr (.inl rfl))))))]

/-- The merge matrix and the merge bias are as launched when the second stretch of host operations reads them. -/
theorem W5_arg15 (c : Dev nD) : W5 m ρ c (Proc.devRef .tc main_arg15) = m ((c : Thread nD τ).loc main_arg15) :=
  (W5_of_ne m ρ c main_arg15 (by decide)).trans ((W4_of_ne m ρ c main_arg15 (by decide)).trans
    (W3_arg m ρ c main_arg15 (.inr (.inr (.inr (.inr (.inr (.inl rfl))))))))
theorem W5_arg16 (c : Dev nD) : W5 m ρ c (Proc.devRef .tc main_arg16) = m ((c : Thread nD τ).loc main_arg16) :=
  (W5_of_ne m ρ c main_arg16 (by decide)).trans ((W4_of_ne m ρ c main_arg16 (by decide)).trans
    (W3_arg m ρ c main_arg16 (.inr (.inr (.inr (.inr (.inr (.inr rfl))))))))

/-! ## The merge region's entry -/

theorem W6_v28 (c : Dev nD) : W6 m ρ c (Proc.devRef .tc main_v28) = W4 m ρ c (Proc.devRef .tc main_v28) := by
  refine Eq.trans ?_ (W5_of_ne m ρ c main_v28 (by decide))
  show StableHlo.after hostOps4 (W5 m ρ c) (Proc.devRef .tc main_v28) = _
  after_results

theorem W6_v29 (c : Dev nD) : W6 m ρ c (Proc.devRef .tc main_v29) = W5 m ρ c (Proc.devRef .tc main_v29) := by
  show StableHlo.after hostOps4 (W5 m ρ c) (Proc.devRef .tc main_v29) = _
  after_results

/-- The first slice of the merge matrix is its upper 256 rows. -/
theorem W6_v30 (c : Dev nD) : W6 m ρ c (Proc.devRef .tc main_v30) = Cert.Spec.upper (m ((c : Thread nD τ).loc main_arg15)) := by
  show StableHlo.after hostOps4 (W5 m ρ c) (Proc.devRef .tc main_v30) = _
  after_results
  rw [W5_arg15]
  funext j
  obtain ⟨k, q, rfl⟩ : ∃ (k : Fin 256) (q : Fin 256), j = ix2 k q := ⟨j 0, j 1, eq_ix2 j⟩
  rw [Cert.Spec.upper_apply]
  exact slice2_axis0_apply 0 _ _ k q _ (by simp)

/-- The second slice of the merge matrix is its lower 256 rows. -/
theorem W6_v31 (c : Dev nD) : W6 m ρ c (Proc.devRef .tc main_v31) = Cert.Spec.lower (m ((c : Thread nD τ).loc main_arg15)) := by
  show StableHlo.after hostOps4 (W5 m ρ c) (Proc.devRef .tc main_v31) = _
  after_results
  rw [W5_arg15]
  funext j
  obtain ⟨k, q, rfl⟩ : ∃ (k : Fin 256) (q : Fin 256), j = ix2 k q := ⟨j 0, j 1, eq_ix2 j⟩
  rw [Cert.Spec.lower_apply]
  exact slice2_axis0_apply 256 _ _ k q _ rfl

/-- The reshaped merge bias is the bias as a one-row table. -/
theorem W6_v32 (c : Dev nD) : W6 m ρ c (Proc.devRef .tc main_v32) = Cert.Spec.asRow (m ((c : Thread nD τ).loc main_arg16)) := by
  show StableHlo.after hostOps4 (W5 m ρ c) (Proc.devRef .tc main_v32) = _
  after_results
  rw [W5_arg16]
  funext j
  obtain ⟨u, q, rfl⟩ : ∃ (u : Fin 1) (q : Fin 256), j = ix2 u q := ⟨j 0, j 1, eq_ix2 j⟩
  rw [Cert.Spec.asRow_apply]
  exact shapeCast_a_1a_apply _ _ u q

/-! ## The result array -/

/-- After the run the result array holds the specification's function of the two aggregated-message arrays and the
    arguments as launched. -/
theorem result_eq (c : Dev nD) :
    W7 m ρ c (Proc.devRef .tc main_v33)
      = Cert.Spec.result (agg0 m c) (agg1 m c) (m ((c : Thread nD τ).loc main_arg0))
          (m ((c : Thread nD τ).loc main_arg11)) (m ((c : Thread nD τ).loc main_arg12))
          (m ((c : Thread nD τ).loc main_arg13)) (m ((c : Thread nD τ).loc main_arg14))
          (m ((c : Thread nD τ).loc main_arg15)) (m ((c : Thread nD τ).loc main_arg16)) := by
  refine (W7_arr m ρ c 5).trans ((Cert.KernelIdeal.Region4.final4 (V6 m ρ) c).trans ?_)
  rw [show V6 m ρ c main_v28 = _ from (W6_v28 m ρ c).trans (W4_v28 m ρ c),
    show V6 m ρ c main_v29 = _ from (W6_v29 m ρ c).trans (W5_v29 m ρ c),
    show V6 m ρ c main_v30 = _ from W6_v30 m ρ c, show V6 m ρ c main_v31 = _ from W6_v31 m ρ c,
    show V6 m ρ c main_v32 = _ from W6_v32 m ρ c]
  rfl

end Cert.KernelIdeal.Chain

end
-- ==== Proof.RefSide.lean ====
/-
  The reference program, stage by stage, is the specification.

  From the two aggregated-message arrays on (they stay unopened here), each branch adds the target features, scaled by
  a constant array whose every entry is the number one, and sends the sum through three layers: the product with one
  256 × 256 plane of a stack of three (a slab of the stack with its unit axis dropped), plus one row of a 3 × 256 table
  repeated over the rows, cut off below at zero. The two branch outputs are laid side by side into an array of 512
  columns, multiplied by a 512 × 256 matrix, and a bias vector repeated over the rows is added.

  Index by index each stage is the matching function of the specification. The only step that is not a reading of
  indices is the last product: a sum over 512 positions is the sum over the first 256, where the side-by-side array
  reads the first branch and the matrix its upper rows, plus the sum over the last 256, where it reads the second branch
  and the matrix its lower rows. Nothing here needs the entries to be finite.
-/
import proofs.«181598_j1425929142863_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws
import proofs.«181598_j1425929142863_1_alg».proof.Proof.Spec

noncomputable section

open Idealize.ShloMosaic Idealize.ShloMosaic.TcCoe Idealize.SL.Sem
open Idealize.ShloMosaic.ValueIdx Idealize.ShloMosaic.RowLinear
open Cert.ReferenceIdeal Cert.ReferenceIdeal.Read

namespace Cert.RefSide

open Cert.ReferenceIdeal.Gen

/-! ## The constants -/

/-- Every entry of the broadcast word `0x3F800000` is the number one. -/
theorem ones_apply (i : S50000x256.Idx) : (val_main_v14 (F := Ideal) i : EReal) = 1 := by
  rw [val_main_v14_apply, val_main_cst_1_apply]
  exact ofBits_one_f32

/-- Every entry of the broadcast zero word is the number zero. -/
theorem zeros_apply (i : S50000x256.Idx) : (val_main_call0_v0 (F := Ideal) i : EReal) = 0 := by
  rw [val_main_call0_v0_apply, val_main_call0_cst_apply]
  exact Ideal.ofBits_zero_f32

/-! ## The residual sum -/

/-- Adding one times the target features to the aggregated messages is the residual sum. -/
theorem resid_stage (a x : (⟨S50000x256, .f32⟩ : BufTy).Contents (Elt Ideal)) :
    addf (F := Ideal) (φ := .f32) a (val_main_v15 (F := Ideal) x) = Cert.Spec.resid a x := by
  funext i
  show a i + val_main_v14 (F := Ideal) i * x i = a i + x i
  rw [ones_apply, one_mul]

/-! ## The planes of the weight stack and the rows of the bias table -/

/-- The first slab of the stack, with its unit axis dropped, is plane 0. -/
theorem plane_stage0 (W : (⟨S3x256x256, .f32⟩ : BufTy).Contents (Elt Ideal)) :
    val_main_v18 (F := Ideal) W = Cert.Spec.plane W 0 := by
  funext j
  obtain ⟨k, c, rfl⟩ : ∃ (k c : Fin 256), j = ix2 k c := ⟨j 0, j 1, eq_ix2 j⟩
  rw [val_main_v18_apply, val_main_v17_apply, Cert.Spec.plane_apply]
  congr 1
  funext a
  apply Fin.ext
  have hk := k.isLt
  have hc := c.isLt
  match a with
  | ⟨0, _⟩ => rfl
  | ⟨1, _⟩ => show (k.val * 256 + c.val) / 256 % 256 = k.val; omega
  | ⟨2, _⟩ => show (k.val * 256 + c.val) % 256 = c.val; omega

/-- The second slab of the stack, with its unit axis dropped, is plane 1. -/
theorem plane_stage1 (W : (⟨S3x256x256, .f32⟩ : BufTy).Contents (Elt Ideal)) :
    val_main_v27 (F := Ideal) W = Cert.Spec.plane W 1 := by
  funext j
  obtain ⟨k, c, rfl⟩ : ∃ (k c : Fin 256), j = ix2 k c := ⟨j 0, j 1, eq_ix2 j⟩
  rw [val_main_v27_apply, val_main_v26_apply, Cert.Spec.plane_apply]
  congr 1
  funext a
  apply Fin.ext
  have hk := k.isLt
  have hc := c.isLt
  match a with
  | ⟨0, _⟩ => rfl
  | ⟨1, _⟩ => show (k.val * 256 + c.val) / 256 % 256 = k.val; omega
  | ⟨2, _⟩ => show (k.val * 256 + c.val) % 256 = c.val; omega

/-- The third slab of the stack, with its unit axis dropped, is plane 2. -/
theorem plane_stage2 (W : (⟨S3x256x256, .f32⟩ : BufTy).Contents (Elt Ideal)) :
    val_main_v36 (F := Ideal) W = Cert.Spec.plane W 2 := by
  funext j
  obtain ⟨k, c, rfl⟩ : ∃ (k c : Fin 256), j = ix2 k c := ⟨j 0, j 1, eq_ix2 j⟩
  rw [val_main_v36_apply, val_main_v35_apply, Cert.Spec.plane_apply]
  congr 1
  funext a
  apply Fin.ext
  have hk := k.isLt
  have hc := c.isLt
  match a with
  | ⟨0, _⟩ => rfl
  | ⟨1, _⟩ => show (k.val * 256 + c.val) / 256 % 256 = k.val; omega
  | ⟨2, _⟩ => show (k.val * 256 + c.val) % 256 = c.val; omega

/-- Row 0 of the bias table, repeated over the 50000 rows. -/
theorem bias_stage0 (b : (⟨S3x256, .f32⟩ : BufTy).Contents (Elt Ideal)) (n : Fin 50000) (c : Fin 256) :
    val_main_v23 (F := Ideal) b (ix2 n c) = b (ix2 (0 : Fin 3) c) := by
  rw [val_main_v23_apply, val_main_v22_apply, val_main_v21_apply, val_main_v20_apply]
  congr 1
  funext a
  apply Fin.ext
  have hc := c.isLt
  match a with
  | ⟨0, _⟩ => rfl
  | ⟨1, _⟩ => show c.val % 256 = c.val; omega

/-- Row 1 of the bias table, repeated over the 50000 rows. -/
theorem bias_stage1 (b : (⟨S3x256, .f32⟩ : BufTy).Contents (Elt Ideal)) (n : Fin 50000) (c : Fin 256) :
    val_main_v32 (F := Ideal) b (ix2 n c) = b (ix2 (1 : Fin 3) c) := by
  rw [val_main_v32_apply, val_main_v31_apply, val_main_v30_apply, val_main_v29_apply]
  congr 1
  funext a
  apply Fin.ext
  have hc := c.isLt
  match a with
  | ⟨0, _⟩ => rfl
  | ⟨1, _⟩ => show c.val % 256 = c.val; omega

/-- Row 2 of the bias table, repeated over the 50000 rows. -/
theorem bias_stage2 (b : (⟨S3x256, .f32⟩ : BufTy).Contents (Elt Ideal)) (n : Fin 50000) (c : Fin 256) :
    val_main_v41 (F := Ideal) b (ix2 n c) = b (ix2 (2 : Fin 3) c) := by
  rw [val_main_v41_apply, val_main_v40_apply, val_main_v39_apply, val_main_v38_apply]
  congr 1
  funext a
  apply Fin.ext
  have hc := c.isLt
  match a with
  | ⟨0, _⟩ => rfl
  | ⟨1, _⟩ => show c.val % 256 = c.val; omega

/-! ## One layer -/

/-- Layer 0 on any incoming array: the product with plane 0, plus row 0 of the bias table, cut off below at zero. -/
theorem layer_stage0 (h : (⟨S50000x256, .f32⟩ : BufTy).Contents (Elt Ideal)) (W : (⟨S3x256x256, .f32⟩ : BufTy).Contents (Elt Ideal))
    (b : (⟨S3x256, .f32⟩ : BufTy).Contents (Elt Ideal)) :
    maximumf (F := Ideal) (φ := .f32) (addf (F := Ideal) (φ := .f32) (Host.dotGeneral (F := Ideal) (φ₁ := .f32) (φ₂ := .f32) dot_S50000x256_S256x256_S50000x256_1_0_0_1_n_n none h (val_main_v18 (F := Ideal) W)) (val_main_v23 (F := Ideal) b)) (val_main_call0_v0 (F := Ideal))
      = Cert.Spec.dense h W b 0 := by
  funext i
  obtain ⟨n, c, rfl⟩ : ∃ (n : Fin 50000) (c : Fin 256), i = ix2 n c := ⟨i 0, i 1, eq_ix2 i⟩
  show max (Host.dotGeneral (F := Ideal) (φ₁ := .f32) (φ₂ := .f32) dot_S50000x256_S256x256_S50000x256_1_0_0_1_n_n none h (val_main_v18 (F := Ideal) W) (ix2 n c) + val_main_v23 (F := Ideal) b (ix2 n c)) (val_main_call0_v0 (F := Ideal) (ix2 n c))
    = max (product h (Cert.Spec.plane W 0) (ix2 n c) + b (ix2 (0 : Fin 3) c)) 0
  rw [dotGeneral_eq_product _ rfl rfl rfl rfl rfl rfl, plane_stage0, bias_stage0, zeros_apply]

/-- Layer 1 on any incoming array. -/
theorem layer_stage1 (h : (⟨S50000x256, .f32⟩ : BufTy).Contents (Elt Ideal)) (W : (⟨S3x256x256, .f32⟩ : BufTy).Contents (Elt Ideal))
    (b : (⟨S3x256, .f32⟩ : BufTy).Contents (Elt Ideal)) :
    maximumf (F := Ideal) (φ := .f32) (addf (F := Ideal) (φ := .f32) (Host.dotGeneral (F := Ideal) (φ₁ := .f32) (φ₂ := .f32) dot_S50000x256_S256x256_S50000x256_1_0_0_1_n_n none h (val_main_v27 (F := Ideal) W)) (val_main_v32 (F := Ideal) b)) (val_main_call0_v0 (F := Ideal))
      = Cert.Spec.dense h W b 1 := by
  funext i
  obtain ⟨n, c, rfl⟩ : ∃ (n : Fin 50000) (c : Fin 256), i = ix2 n c := ⟨i 0, i 1, eq_ix2 i⟩
  show max (Host.dotGeneral (F := Ideal) (φ₁ := .f32) (φ₂ := .f32) dot_S50000x256_S256x256_S50000x256_1_0_0_1_n_n none h (val_main_v27 (F := Ideal) W) (ix2 n c) + val_main_v32 (F := Ideal) b (ix2 n c)) (val_main_call0_v0 (F := Ideal) (ix2 n c))
    = max (product h (Cert.Spec.plane W 1) (ix2 n c) + b (ix2 (1 : Fin 3) c)) 0
  rw [dotGeneral_eq_product _ rfl rfl rfl rfl rfl rfl, plane_stage1, bias_stage1, zeros_apply]

/-- Layer 2 on any incoming array. -/
theorem layer_stage2 (h : (⟨S50000x256, .f32⟩ : BufTy).Contents (Elt Ideal)) (W : (⟨S3x256x256, .f32⟩ : BufTy).Contents (Elt Ideal))
    (b : (⟨S3x256, .f32⟩ : BufTy).Contents (Elt Ideal)) :
    maximumf (F := Ideal) (φ := .f32) (addf (F := Ideal) (φ := .f32) (Host.dotGeneral (F := Ideal) (φ₁ := .f32) (φ₂ := .f32) dot_S50000x256_S256x256_S50000x256_1_0_0_1_n_n none h (val_main_v36 (F := Ideal) W)) (val_main_v41 (F := Ideal) b)) (val_main_call0_v0 (F := Ideal))
      = Cert.Spec.dense h W b 2 := by
  funext i
  obtain ⟨n, c, rfl⟩ : ∃ (n : Fin 50000) (c : Fin 256), i = ix2 n c := ⟨i 0, i 1, eq_ix2 i⟩
  show max (Host.dotGeneral (F := Ideal) (φ₁ := .f32) (φ₂ := .f32) dot_S50000x256_S256x256_S50000x256_1_0_0_1_n_n none h (val_main_v36 (F := Ideal) W) (ix2 n c) + val_main_v41 (F := Ideal) b (ix2 n c)) (val_main_call0_v0 (F := Ideal) (ix2 n c))
    = max (product h (Cert.Spec.plane W 2) (ix2 n c) + b (ix2 (2 : Fin 3) c)) 0
  rw [dotGeneral_eq_product _ rfl rfl rfl rfl rfl rfl, plane_stage2, bias_stage2, zeros_apply]

/-! ## The three layers in turn -/

/-- The three layers in turn, on any incoming array, over one stack of weights and one bias table. -/
theorem tower_stage (h : (⟨S50000x256, .f32⟩ : BufTy).Contents (Elt Ideal)) (W : (⟨S3x256x256, .f32⟩ : BufTy).Contents (Elt Ideal))
    (b : (⟨S3x256, .f32⟩ : BufTy).Contents (Elt Ideal)) :
    maximumf (F := Ideal) (φ := .f32) (addf (F := Ideal) (φ := .f32) (Host.dotGeneral (F := Ideal) (φ₁ := .f32) (φ₂ := .f32) dot_S50000x256_S256x256_S50000x256_1_0_0_1_n_n none
      (maximumf (F := Ideal) (φ := .f32) (addf (F := Ideal) (φ := .f32) (Host.dotGeneral (F := Ideal) (φ₁ := .f32) (φ₂ := .f32) dot_S50000x256_S256x256_S50000x256_1_0_0_1_n_n none
        (maximumf (F := Ideal) (φ := .f32) (addf (F := Ideal) (φ := .f32) (Host.dotGeneral (F := Ideal) (φ₁ := .f32) (φ₂ := .f32) dot_S50000x256_S256x256_S50000x256_1_0_0_1_n_n none h
          (val_main_v18 (F := Ideal) W)) (val_main_v23 (F := Ideal) b)) (val_main_call0_v0 (F := Ideal)))
        (val_main_v27 (F := Ideal) W)) (val_main_v32 (F := Ideal) b)) (val_main_call0_v0 (F := Ideal)))
      (val_main_v36 (F := Ideal) W)) (val_main_v41 (F := Ideal) b)) (val_main_call0_v0 (F := Ideal))
      = Cert.Spec.tower h W b := by
  rw [layer_stage0, layer_stage1, layer_stage2]
  rfl

/-! ## The two branches -/

/-- Branch 0: the three layers over the first stack, on the residual sum of the first aggregated messages. -/
theorem branch0 (x0 : (⟨S50000x256, .f32⟩ : BufTy).Contents (Elt Ideal)) (x1 : (⟨S100000x128, .f32⟩ : BufTy).Contents (Elt Ideal))
    (x3 : (⟨S400000, .f32⟩ : BufTy).Contents (Elt Ideal)) (x5 x6 : (⟨S400000, .i32⟩ : BufTy).Contents (Elt Ideal))
    (x9 : (⟨S128x256, .f32⟩ : BufTy).Contents (Elt Ideal)) (x11 : (⟨S3x256x256, .f32⟩ : BufTy).Contents (Elt Ideal))
    (x12 : (⟨S3x256, .f32⟩ : BufTy).Contents (Elt Ideal)) :
    val_main_v43 (F := Ideal) x0 x1 x3 x5 x6 x9 x11 x12
      = Cert.Spec.tower (Cert.Spec.resid (val_main_v13 (F := Ideal) x1 x3 x5 x6 x9) x0) x11 x12 := by
  generalize ha : val_main_v13 (F := Ideal) x1 x3 x5 x6 x9 = a
  rw [← resid_stage a x0, ← tower_stage]
  subst ha
  rfl

/-- Branch 1: the three layers over the second stack, on the residual sum of the second aggregated messages. -/
theorem branch1 (x0 : (⟨S50000x256, .f32⟩ : BufTy).Contents (Elt Ideal)) (x2 : (⟨S100000x128, .f32⟩ : BufTy).Contents (Elt Ideal))
    (x4 : (⟨S400000, .f32⟩ : BufTy).Contents (Elt Ideal)) (x7 x8 : (⟨S400000, .i32⟩ : BufTy).Contents (Elt Ideal))
    (x10 : (⟨S128x256, .f32⟩ : BufTy).Contents (Elt Ideal)) (x13 : (⟨S3x256x256, .f32⟩ : BufTy).Contents (Elt Ideal))
    (x14 : (⟨S3x256, .f32⟩ : BufTy).Contents (Elt Ideal)) :
    val_main_v87 (F := Ideal) x0 x2 x4 x7 x8 x10 x13 x14
      = Cert.Spec.tower (Cert.Spec.resid (val_main_v57 (F := Ideal) x2 x4 x7 x8 x10) x0) x13 x14 := by
  generalize ha : val_main_v57 (F := Ideal) x2 x4 x7 x8 x10 = a
  rw [← resid_stage a x0, ← tower_stage]
  subst ha
  rfl

/-! ## The merge -/

/-- The bias vector, as a one-row table repeated over the 50000 rows. -/
theorem merge_bias (bm : (⟨S256, .f32⟩ : BufTy).Contents (Elt Ideal)) (n : Fin 50000) (c : Fin 256) :
    val_main_v91 (F := Ideal) bm (ix2 n c) = Cert.Spec.asRow bm (ix2 (0 : Fin 1) c) := by
  rw [val_main_v91_apply, val_main_v90_apply, Cert.Spec.asRow_apply]
  congr 1
  funext a
  apply Fin.ext
  match a with
  | ⟨0, _⟩ => rfl

/-- A column of the first half of the concatenation `[h0 | h1]` is that column of `h0`. -/
theorem concat_left (h0 h1 : (⟨S50000x256, .f32⟩ : BufTy).Contents (Elt Ideal)) (n : Fin 50000) (k : Fin 256) :
    concatenate S50000x512 1 [⟨S50000x256, h0⟩, ⟨S50000x256, h1⟩] concatenates_S50000x256_S50000x256_S50000x512_d1
      (ix2 n (⟨k.val, by omega⟩ : Fin 512)) = h0 (ix2 n k) :=
  concatenate_pair_apply_left (t := S50000x512) (s₁ := S50000x256) (s₂ := S50000x256) (1 : Fin 2) h0 h1
    concatenates_S50000x256_S50000x256_S50000x512_d1 _ rfl (ix2 n k) (fun b => by
      match b with
      | ⟨0, _⟩ => rfl
      | ⟨1, _⟩ => rfl)

/-- A column of the second half of the concatenation `[h0 | h1]` is that column, 256 less, of `h1`. -/
theorem concat_right (h0 h1 : (⟨S50000x256, .f32⟩ : BufTy).Contents (Elt Ideal)) (n : Fin 50000) (k : Fin 256) :
    concatenate S50000x512 1 [⟨S50000x256, h0⟩, ⟨S50000x256, h1⟩] concatenates_S50000x256_S50000x256_S50000x512_d1
      (ix2 n (⟨256 + k.val, by omega⟩ : Fin 512)) = h1 (ix2 n k) :=
  concatenate_pair_apply_right (t := S50000x512) (s₁ := S50000x256) (s₂ := S50000x256) (1 : Fin 2) h0 h1
    concatenates_S50000x256_S50000x256_S50000x512_d1 _ rfl rfl (ix2 n k)
    (fun b hb => by
      match b with
      | ⟨0, _⟩ => rfl
      | ⟨1, _⟩ => exact absurd rfl hb)
    (by show k.val + 256 = 256 + k.val; omega)

/-- The product of the concatenation `[h0 | h1]` with the 512 × 256 matrix, plus the bias, is the merge of `h0` and
    `h1` over the matrix's upper and lower halves: the sum over 512 positions splits into its two halves. -/
theorem merge_stage (h0 h1 : (⟨S50000x256, .f32⟩ : BufTy).Contents (Elt Ideal)) (Wm : (⟨S512x256, .f32⟩ : BufTy).Contents (Elt Ideal))
    (bm : (⟨S256, .f32⟩ : BufTy).Contents (Elt Ideal)) :
    addf (F := Ideal) (φ := .f32) (Host.dotGeneral (F := Ideal) (φ₁ := .f32) (φ₂ := .f32) dot_S50000x512_S512x256_S50000x256_1_0_0_1_n_n none
        (concatenate S50000x512 1 [⟨S50000x256, h0⟩, ⟨S50000x256, h1⟩] concatenates_S50000x256_S50000x256_S50000x512_d1) Wm)
      (val_main_v91 (F := Ideal) bm)
      = Cert.Spec.merged h0 h1 (Cert.Spec.upper Wm) (Cert.Spec.lower Wm) (Cert.Spec.asRow bm) := by
  funext i
  obtain ⟨n, c, rfl⟩ : ∃ (n : Fin 50000) (c : Fin 256), i = ix2 n c := ⟨i 0, i 1, eq_ix2 i⟩
  rw [Cert.Spec.merged_apply, product_apply, product_apply]
  show Host.dotGeneral (F := Ideal) (φ₁ := .f32) (φ₂ := .f32) dot_S50000x512_S512x256_S50000x256_1_0_0_1_n_n none
        (concatenate S50000x512 1 [⟨S50000x256, h0⟩, ⟨S50000x256, h1⟩] concatenates_S50000x256_S50000x256_S50000x512_d1) Wm (ix2 n c)
      + val_main_v91 (F := Ideal) bm (ix2 n c) = _
  rw [RowLinear.dotGeneral_apply _ rfl rfl rfl rfl rfl rfl, merge_bias, Cert.Spec.sum_halves]
  congr 2
  · exact Finset.sum_congr rfl fun k _ => by rw [concat_left, Cert.Spec.upper_apply]
  · exact Finset.sum_congr rfl fun k _ => by rw [concat_right, Cert.Spec.lower_apply]

/-! ## The whole reference -/

theorem ref_eq (x0 : (⟨S50000x256, .f32⟩ : BufTy).Contents (Elt Ideal)) (x1 x2 : (⟨S100000x128, .f32⟩ : BufTy).Contents (Elt Ideal))
    (x3 x4 : (⟨S400000, .f32⟩ : BufTy).Contents (Elt Ideal)) (x5 x6 x7 x8 : (⟨S400000, .i32⟩ : BufTy).Contents (Elt Ideal))
    (x9 x10 : (⟨S128x256, .f32⟩ : BufTy).Contents (Elt Ideal)) (x11 : (⟨S3x256x256, .f32⟩ : BufTy).Contents (Elt Ideal))
    (x12 : (⟨S3x256, .f32⟩ : BufTy).Contents (Elt Ideal)) (x13 : (⟨S3x256x256, .f32⟩ : BufTy).Contents (Elt Ideal))
    (x14 : (⟨S3x256, .f32⟩ : BufTy).Contents (Elt Ideal)) (x15 : (⟨S512x256, .f32⟩ : BufTy).Contents (Elt Ideal))
    (x16 : (⟨S256, .f32⟩ : BufTy).Contents (Elt Ideal)) :
    val_main_v92 (F := Ideal) x0 x1 x2 x3 x4 x5 x6 x7 x8 x9 x10 x11 x12 x13 x14 x15 x16
      = Cert.Spec.result (val_main_v13 (F := Ideal) x1 x3 x5 x6 x9) (val_main_v57 (F := Ideal) x2 x4 x7 x8 x10) x0 x11 x12 x13 x14 x15 x16 := by
  unfold Cert.Spec.result Cert.Spec.out
  rw [← branch0 x0 x1 x3 x5 x6 x9 x11 x12, ← branch1 x0 x2 x4 x7 x8 x10 x13 x14]
  exact merge_stage _ _ x15 x16

end Cert.RefSide

end
-- ==== Proof.Bridge.lean ====
/-
  The two programs end at one function of the arguments.

  The kernel's run leaves in its result array the specification's function of the two aggregated-message arrays and
  the arguments (the boundary contents walked back through the five regions and the two stretches of host
  operations); the reference's run leaves the same function of ITS two aggregated-message arrays. The two pairs of
  arrays agree: each is the same chain of host operations — wrap the column indices, gather, scale by the edge values,
  add into the rows — applied to the product of the source features with the source weights, which the reference
  writes as a host contraction and the kernel computes block of rows by block of rows. The reference's factor 1.0 on
  the target features is the number one, so its residual sum is the kernel's. No step needs the inputs finite.
-/
import proofs.«181598_j1425929142863_1_alg».proof.Defs
import proofs.«181598_j1425929142863_1_alg».proof.Proof.Gen.Kernel.Frame
import proofs.«181598_j1425929142863_1_alg».proof.Proof.Gen.KernelIdeal.Frame
import proofs.«181598_j1425929142863_1_alg».proof.Proof.Gen.ReferenceIdeal.Run
import proofs.«181598_j1425929142863_1_alg».proof.Proof.Gen.ReferenceIdeal.Read
import proofs.«181598_j1425929142863_1_alg».proof.Proof.Gen.Pre_finite_inputs
import proofs.«181598_j1425929142863_1_alg».proof.Proof.Spec
import proofs.«181598_j1425929142863_1_alg».proof.Proof.KernelRun
import proofs.«181598_j1425929142863_1_alg».proof.Proof.Chain
import proofs.«181598_j1425929142863_1_alg».proof.Proof.RefSide

set_option maxRecDepth 16384

noncomputable section

open Idealize.ShloMosaic Idealize.ShloMosaic.TcCoe Idealize.SL.Sem
open Idealize.ShloMosaic.ValueIdx Idealize.ShloMosaic.RowLinear

namespace Cert.Bridge

/-- The reference's first aggregated-message array is the branch's host chain of the first product. -/
theorem ref_agg0 (x1 : (⟨Cert.ReferenceIdeal.S100000x128, .f32⟩ : BufTy).Contents (Elt Ideal))
    (x3 : (⟨Cert.ReferenceIdeal.S400000, .f32⟩ : BufTy).Contents (Elt Ideal))
    (x5 x6 : (⟨Cert.ReferenceIdeal.S400000, .i32⟩ : BufTy).Contents (Elt Ideal))
    (x9 : (⟨Cert.ReferenceIdeal.S128x256, .f32⟩ : BufTy).Contents (Elt Ideal)) :
    Cert.ReferenceIdeal.Read.val_main_v13 (F := Ideal) x1 x3 x5 x6 x9
      = Cert.KernelIdeal.Chain.aggOf (F := Ideal) (product (N := 100000) (K := 128) (M := 256) x1 x9) x3 x5 x6 := by
  have hp : Cert.ReferenceIdeal.Read.val_main_v0 (F := Ideal) x1 x9 = product (N := 100000) (K := 128) (M := 256) x1 x9 :=
    dotGeneral_eq_product _ rfl rfl rfl rfl rfl rfl none x1 x9
  unfold Cert.ReferenceIdeal.Read.val_main_v13 Cert.ReferenceIdeal.Read.val_main_v10 Cert.ReferenceIdeal.Read.val_main_v8
  rw [hp]
  rfl

/-- The reference's second aggregated-message array is the branch's host chain of the second product. -/
theorem ref_agg1 (x2 : (⟨Cert.ReferenceIdeal.S100000x128, .f32⟩ : BufTy).Contents (Elt Ideal))
    (x4 : (⟨Cert.ReferenceIdeal.S400000, .f32⟩ : BufTy).Contents (Elt Ideal))
    (x7 x8 : (⟨Cert.ReferenceIdeal.S400000, .i32⟩ : BufTy).Contents (Elt Ideal))
    (x10 : (⟨Cert.ReferenceIdeal.S128x256, .f32⟩ : BufTy).Contents (Elt Ideal)) :
    Cert.ReferenceIdeal.Read.val_main_v57 (F := Ideal) x2 x4 x7 x8 x10
      = Cert.KernelIdeal.Chain.aggOf (F := Ideal) (product (N := 100000) (K := 128) (M := 256) x2 x10) x4 x7 x8 := by
  have hp : Cert.ReferenceIdeal.Read.val_main_v44 (F := Ideal) x2 x10 = product (N := 100000) (K := 128) (M := 256) x2 x10 :=
    dotGeneral_eq_product _ rfl rfl rfl rfl rfl rfl none x2 x10
  unfold Cert.ReferenceIdeal.Read.val_main_v57 Cert.ReferenceIdeal.Read.val_main_v54 Cert.ReferenceIdeal.Read.val_main_v52
  rw [hp]
  rfl

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read over the extended reals. -/
theorem preserves : Cert.preserves_Kernel_KernelIdeal := trivial

/-- From memories agreeing on the arguments both runs end with the result array at the specification's function
    of the kernel's arguments. -/
theorem algebraic : Cert.algebraic_KernelIdeal_ReferenceIdeal := by
  intro m ρ m' ρ' _ hagree
  refine ⟨fun c => Cert.Spec.result (Cert.KernelIdeal.Chain.agg0 m c) (Cert.KernelIdeal.Chain.agg1 m c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Chain.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.ReferenceIdeal.Read.val_main_v92_eq, Cert.RefSide.ref_eq, ref_agg0, ref_agg1,
      h0, h1, h2, h3, h4, h5, h6, h7, h8, h9, h10, h11, h12, h13, h14, h15, h16]

end Cert.Bridge

end
-- ==== Proof.lean ====
/-
  The certificate of a two-branch message-passing layer: per branch a source product, a gather and scatter-add over
  the edges, a residual sum and three dense layers with rectification, the branches merged by one more product.
  The kernel tiles the three dense stages over blocks of 2000 rows and feeds its products through a narrower float
  format; over the extended reals a change of format is the identity, a product of a block of rows is that block of
  rows of the product, and the merge over the concatenated branches is the sum of the merges over each half of the
  merge matrix. So both programs compute one function of the arguments (Proof/Bridge.lean).
-/
import proofs.«181598_j1425929142863_1_alg».proof.Defs
import proofs.«181598_j1425929142863_1_alg».proof.Proof.Gen.Kernel
import proofs.«181598_j1425929142863_1_alg».proof.Proof.Gen.KernelIdeal
import proofs.«181598_j1425929142863_1_alg».proof.Proof.Gen.ReferenceIdeal
import proofs.«181598_j1425929142863_1_alg».proof.Proof.Gen.Pre_finite_inputs
import proofs.«181598_j1425929142863_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Bridge.frame_k, Cert.Bridge.frame_ki, Cert.Bridge.frame_ri, Cert.Bridge.preserves, Cert.Bridge.algebraic⟩

end Cert.Proof

end
